-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 32000#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x32000 : Shape := ⟨2, ![8192, 32000]⟩
abbrev S8192 : Shape := ⟨1, ![8192]⟩
abbrev S8192x1 : Shape := ⟨2, ![8192, 1]⟩
abbrev S16x128 : Shape := ⟨2, ![16, 128]⟩
abbrev S64x32000 : Shape := ⟨2, ![64, 32000]⟩
abbrev S64x1 : Shape := ⟨2, ![64, 1]⟩
abbrev S8x128 : Shape := ⟨2, ![8, 128]⟩
abbrev S64x3200 : Shape := ⟨2, ![64, 3200]⟩
abbrev S64 : Shape := ⟨1, ![64]⟩
abbrev S1 : Shape := ⟨1, ![1]⟩
abbrev S1x1 : Shape := ⟨2, ![1, 1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S16x128, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S64x32000, .f32⟩
  | .local _ .vmem, ⟨1, _⟩ => ⟨S64x32000, .f32⟩
  | .local _ .vmem, ⟨2, _⟩ => ⟨S64x1, .i32⟩
  | .local _ .vmem, ⟨3, _⟩ => ⟨S64x1, .i32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_2 : BitVec 32 := 0#32
  let c10_i32 : BitVec 32 := 10#32
  let v6 : BitVec 32 := Scalar.addi c0_i32_2 c10_i32
  let c1_i32 : BitVec 32 := 1#32
  ⟨c0_i32_2, v6, c1_i32⟩
def k0_mult1 (k0_t1 : Fin k0_t1_loop.trips) : BitVec 32 :=
  let c0_i32_2 : BitVec 32 := 0#32
  let c1_i32 : BitVec 32 := 1#32
  let arg6 : BitVec 32 := Scf.iv c0_i32_2 c1_i32 k0_t1
  let c3200_i32 : BitVec 32 := 3200#32
  let v36 : BitVec 32 := Scalar.muli arg6 c3200_i32
  v36
def k0_off1 (k0_t1 : Fin k0_t1_loop.trips) : Fin 2 → Nat :=
  let c0_19 : Index := 0#32
  let c0_i32_2 : BitVec 32 := 0#32
  let c1_i32 : BitVec 32 := 1#32
  let arg6 : BitVec 32 := Scf.iv c0_i32_2 c1_i32 k0_t1
  let c3200_i32 : BitVec 32 := 3200#32
  let v36 : BitVec 32 := Scalar.muli arg6 c3200_i32
  let v37 : BitVec 32 := v36
  let v38 : Index := Scalar.indexCast v37
  ![0, v38.toNat]
@[reducible] def k0_t2_loop : Scf.Loop 32 :=
  let c0_i32_6 : BitVec 32 := 0#32
  let c10_i32_7 : BitVec 32 := 10#32
  let v10 : BitVec 32 := Scalar.addi c0_i32_6 c10_i32_7
  let c1_i32_8 : BitVec 32 := 1#32
  ⟨c0_i32_6, v10, c1_i32_8⟩
def k0_mult2 (k0_t2 : Fin k0_t2_loop.trips) : BitVec 32 :=
  let c0_i32_6 : BitVec 32 := 0#32
  let c1_i32_8 : BitVec 32 := 1#32
  let arg6 : BitVec 32 := Scf.iv c0_i32_6 c1_i32_8 k0_t2
  let c3200_i32 : BitVec 32 := 3200#32
  let v36 : BitVec 32 := Scalar.muli arg6 c3200_i32
  v36
def k0_off2 (k0_t2 : Fin k0_t2_loop.trips) : Fin 2 → Nat :=
  let c0_19 : Index := 0#32
  let c0_i32_6 : BitVec 32 := 0#32
  let c1_i32_8 : BitVec 32 := 1#32
  let arg6 : BitVec 32 := Scf.iv c0_i32_6 c1_i32_8 k0_t2
  let c3200_i32 : BitVec 32 := 3200#32
  let v36 : BitVec 32 := Scalar.muli arg6 c3200_i32
  let v37 : BitVec 32 := v36
  let v38 : Index := Scalar.indexCast v37
  ![0, v38.toNat]
def k0_cond2 (i : grid0.Coords) : BitVec 1 :=
  let arg1 : BitVec 32 := BitVec.ofNat 32 (i 1).val
  let c63_i32 : BitVec 32 := 63#32
  let v33 : BitVec 1 := Scalar.cmpi .eq arg1 c63_i32
  let v34 : BitVec 32 := Scalar.extui v33
  let c0_i32_18 : BitVec 32 := 0#32
  let v35 : BitVec 1 := Scalar.cmpi .ne v34 c0_i32_18
  v35

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8192_S8192x1 : S8192.ShapeCasts S8192x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  h_S64x3200 : 0 < S64x3200.numel
  reduces_S64x3200_S64 : S64x3200.Reduces [1] S64
  shapeCasts_S64_S64x1 : S64.ShapeCasts S64x1
  broadcasts_S64x1_S64x3200 : S64x1.Broadcasts S64x3200
  iota_S64x3200_d1_w32 : S64x3200.Iotas .tc 32 [1]
  reduces_S64x1_S1 : S64x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S64x3200.size a ≤ S64x32000.size a
  k0_t2_ok : k0_t2_loop.OK
  k0_mult2_dvd : ∀ k0_t2 : Fin k0_t2_loop.trips, 128 ∣ (k0_mult2 k0_t2).toNat
  k0_off2_inb : ∀ k0_t2 : Fin k0_t2_loop.trips, ∀ a, (k0_off2 k0_t2) a + S64x3200.size a ≤ S64x32000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32000.size a ≤ S8192x32000.size a
  hwx0_0 : ∀ i : grid0.Coords, EltTy.bits .f32 = 32 ∨ (Rect.block (s := S8192x32000) S64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S8192x1.size a
  hwx0_1 : ∀ i : grid0.Coords, EltTy.bits .i32 = 32 ∨ (Rect.block (s := S8192x1) S64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x32000, .f32⟩
  | .hbm, ⟨9, _⟩ => ⟨S8192x32000, .f32⟩
  | .hbm, ⟨10, _⟩ => ⟨S8192x32000, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S8192x32000, .f32⟩
  | .hbm, ⟨16, _⟩ => ⟨S8192x32000, .f32⟩
  | .hbm, ⟨17, _⟩ => ⟨S8192x1, .i32⟩
  | .hbm, ⟨18, _⟩ => ⟨S_, .i32⟩
  | .hbm, ⟨19, _⟩ => ⟨S8192x1, .i32⟩
  | .hbm, ⟨20, _⟩ => ⟨S8192x1, .i1⟩
  | .hbm, ⟨21, _⟩ => ⟨S_, .i32⟩
  | .hbm, ⟨22, _⟩ => ⟨S8192x1, .i32⟩
  | .hbm, ⟨23, _⟩ => ⟨S8192x1, .i32⟩
  | .hbm, ⟨24, _⟩ => ⟨S8192x1, .i32⟩
  | .hbm, ⟨25, _⟩ => ⟨S8192x1x1, .i32⟩
  | .hbm, ⟨26, _⟩ => ⟨S1, .i32⟩
  | .hbm, ⟨27, _⟩ => ⟨S_, .i32⟩
  | .hbm, ⟨28, _⟩ => ⟨S8192x1x1, .i32⟩
  | .hbm, ⟨29, _⟩ => ⟨S8192x1x1, .i1⟩
  | .hbm, ⟨30, _⟩ => ⟨S1x1x1, .i32⟩
  | .hbm, ⟨31, _⟩ => ⟨S8192x1x1, .i32⟩
  | .hbm, ⟨32, _⟩ => ⟨S8192x1x1, .i1⟩
  | .hbm, ⟨33, _⟩ => ⟨S8192x1x1, .i1⟩
  | .hbm, ⟨34, _⟩ => ⟨S_, .i1⟩
  | .hbm, ⟨35, _⟩ => ⟨S8192x1, .i1⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_cst : Ref sig .tc := ⟨.hbm, 41, rfl⟩
abbrev main_v4 : Ref sig .tc := ⟨.hbm, 42, rfl⟩
abbrev main_v5 : Ref sig .tc := ⟨.hbm, 43, rfl⟩
abbrev main_cst_0 : Ref sig .tc := ⟨.hbm, 44, rfl⟩
abbrev main_v6 : Ref sig .tc := ⟨.hbm, 45, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  gather_S8192x32000_S8192x1x1_S8192x1_n_1_0_0_1_2_11_wf : GatherDims.WF S8192x32000 S8192x1x1 S8192x1 [] [1] [0] [1] [0] 2 ![1, 1]

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.RefRun.lean ====
/-
  The reference program's run read back. Its 44 host operations are cut into short stretches — the log-softmax of the
  inputs in four (the row maxima; the shifted entries and their exponentials; the logarithm of the row sums; the
  difference), then the gather along the rows at the normalised targets with its in-range test and fill, then the sum
  over the rows, negated and divided by 3 —, each stretch's results stated as functions of what the stretch found and
  what it leaves untouched, and the stretches joined in order. Every weakly fair execution of the reference ends with
  its result at the last stage of the launch contents of its two arguments, the arguments unchanged.
-/
import proofs.«426357_j19499151524481_3_alg».proof.Proof.RefRead
import Idealize.ShloMosaic.Lib.StableHlo.Run
import Idealize.ShloMosaic.Lib.Pipeline.Frame

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- The row maxima: the two -∞ constants, the maximum over each row, its maximum with -∞. -/
abbrev ops1a : List (HloOp τ sig (Elt F)) :=
  [ TRef.nullary (TRef.of (T := ⟨S_, .f32⟩) main_call0_cst) (constant S_ .f32 0xFF800000#32),
    TRef.binary (TRef.of (T := ⟨S8192x32000, .f32⟩) main_arg0) (TRef.of (T := ⟨S_, .f32⟩) main_call0_cst) (TRef.of (T := ⟨S8192, .f32⟩) main_call0_v0) (fun x v => Host.reduce FloatOps.maximumf x v reducesTo_S8192x32000_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf ]

/-- The row maxima broadcast over the rows, the shifted entries, their exponentials. -/
abbrev ops1b : List (HloOp τ sig (Elt F)) :=
  [ TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x32000, .f32⟩) main_call0_v4) (broadcastInDim S8192x32000 ![0, 1] bcast_S8192x1_S8192x32000_0_1),
    TRef.binary (TRef.of (T := ⟨S8192x32000, .f32⟩) main_arg0) (TRef.of (T := ⟨S8192x32000, .f32⟩) main_call0_v4) (TRef.of (T := ⟨S8192x32000, .f32⟩) main_call0_v5) subf,
    TRef.unary (TRef.of (T := ⟨S8192x32000, .f32⟩) main_call0_v5) (TRef.of (T := ⟨S8192x32000, .f32⟩) main_call0_v6) Host.exp ]

/-- The row sums of the exponentials from zero, as a column, their logarithm. -/
abbrev ops1c : List (HloOp τ sig (Elt F)) :=
  [ TRef.nullary (TRef.of (T := ⟨S_, .f32⟩) main_call0_cst_1) (constant S_ .f32 0x00000000#32),
    TRef.binary (TRef.of (T := ⟨S8192x32000, .f32⟩) main_call0_v6) (TRef.of (T := ⟨S_, .f32⟩) main_call0_cst_1) (TRef.of (T := ⟨S8192, .f32⟩) main_call0_v7) (fun x v => Host.reduceAdd x v reducesTo_S8192x32000_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log ]

/-- The logarithms broadcast over the rows and the difference: the log-softmax. -/
abbrev ops1d : List (HloOp τ sig (Elt F)) :=
  [ TRef.unary (TRef.of (T := ⟨S8192x1, .f32⟩) main_call0_v9) (TRef.of (T := ⟨S8192x32000, .f32⟩) main_call0_v10) (broadcastInDim S8192x32000 ![0, 1] bcast_S8192x1_S8192x32000_0_1),
    TRef.binary (TRef.of (T := ⟨S8192x32000, .f32⟩) main_call0_v5) (TRef.of (T := ⟨S8192x32000, .f32⟩) main_call0_v10) (TRef.of (T := ⟨S8192x32000, .f32⟩) main_v0) subf ]

/-- The log-softmax's operations. -/
abbrev ops1 : List (HloOp τ sig (Elt F)) := ops1a ++ (ops1b ++ (ops1c ++ ops1d))

/-- The targets as a column, their normalisation, the in-range test, the gather and the fill. -/
abbrev ops2 : List (HloOp τ sig (Elt F)) :=
  [ unary main_arg1 main_v1 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8192x1, .i32⟩) main_call1_v0) (broadcastInDim S8192x1 ![] bcast_S_S8192x1),
    TRef.binary (TRef.of (T := ⟨S8192x1, .i32⟩) main_v1) (TRef.of (T := ⟨S8192x1, .i32⟩) main_call1_v0) (TRef.of (T := ⟨S8192x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S8192x1, .i32⟩) main_call1_v2) (broadcastInDim S8192x1 ![] bcast_S_S8192x1),
    TRef.binary (TRef.of (T := ⟨S8192x1, .i32⟩) main_v1) (TRef.of (T := ⟨S8192x1, .i32⟩) main_call1_v2) (TRef.of (T := ⟨S8192x1, .i32⟩) main_call1_v3) addi,
    TRef.ternary (TRef.of (T := ⟨S8192x1, .i1⟩) main_call1_v1) (TRef.of (T := ⟨S8192x1, .i32⟩) main_call1_v3) (TRef.of (T := ⟨S8192x1, .i32⟩) main_v1) (TRef.of (T := ⟨S8192x1, .i32⟩) main_call1_v4) select,
    TRef.reshape (TRef.of (T := ⟨S8192x1, .i32⟩) main_call1_v4) (TRef.of (T := ⟨S8192x1x1, .i32⟩) main_call1_v5) rfl shapeCasts_S8192x1_S8192x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S8192x1x1, .i32⟩) main_call1_v6) (broadcastInDim S8192x1x1 ![] bcast_S_S8192x1x1),
    TRef.binary (TRef.of (T := ⟨S8192x1x1, .i32⟩) main_call1_v5) (TRef.of (T := ⟨S8192x1x1, .i32⟩) main_call1_v6) (TRef.of (T := ⟨S8192x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8192x1x1, .i32⟩) main_call1_v9) (broadcastInDim S8192x1x1 ![0, 1, 2] bcast_S1x1x1_S8192x1x1_0_1_2),
    TRef.binary (TRef.of (T := ⟨S8192x1x1, .i32⟩) main_call1_v5) (TRef.of (T := ⟨S8192x1x1, .i32⟩) main_call1_v9) (TRef.of (T := ⟨S8192x1x1, .i1⟩) main_call1_v10) (cmpi .sle),
    TRef.binary (TRef.of (T := ⟨S8192x1x1, .i1⟩) main_call1_v7) (TRef.of (T := ⟨S8192x1x1, .i1⟩) main_call1_v10) (TRef.of (T := ⟨S8192x1x1, .i1⟩) main_call1_v11) andi,
    TRef.nullary (TRef.of (T := ⟨S_, .i1⟩) main_call1_c_3) (constantI S_ 1 1#1),
    TRef.binary (TRef.of (T := ⟨S8192x1x1, .i1⟩) main_call1_v11) (TRef.of (T := ⟨S_, .i1⟩) main_call1_c_3) (TRef.of (T := ⟨S8192x1, .i1⟩) main_call1_v12) (fun x v => Host.reduce IntOp.andi x v reducesTo_S8192x1x1_S8192x1_d2 h_S_),
    TRef.binary (TRef.of (T := ⟨S8192x32000, .f32⟩) main_v0) (TRef.of (T := ⟨S8192x1x1, .i32⟩) main_call1_v5) (TRef.of (T := ⟨S8192x1, .f32⟩) main_call1_v13) (fun x i => Host.gather gather_S8192x32000_S8192x1x1_S8192x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8192x1, .f32⟩) main_call1_v14) (broadcastInDim S8192x1 ![] bcast_S_S8192x1),
    TRef.ternary (TRef.of (T := ⟨S8192x1, .i1⟩) main_call1_v12) (TRef.of (T := ⟨S8192x1, .f32⟩) main_call1_v13) (TRef.of (T := ⟨S8192x1, .f32⟩) main_call1_v14) (TRef.of (T := ⟨S8192x1, .f32⟩) main_v2) select ]

/-- The sum over the rows, the negation, the division by 3. -/
abbrev ops3 : List (HloOp τ sig (Elt F)) :=
  [ reshape main_v2 main_v3 rfl shapeCasts_S8192x1_S8192,
    nullary main_cst (constant S_ .f32 0x00000000#32),
    binary main_v3 main_cst main_v4 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v4 main_v5 (Host.negf : (⟨S_, .f32⟩ : BufTy).Contents (Elt F) → (⟨S_, .f32⟩ : BufTy).Contents (Elt F)),
    nullary main_cst_0 (constant S_ .f32 0x40400000#32),
    binary main_v5 main_cst_0 main_v6 (Host.divf : (⟨S_, .f32⟩ : BufTy).Contents (Elt F) → (⟨S_, .f32⟩ : BufTy).Contents (Elt F) → (⟨S_, .f32⟩ : BufTy).Contents (Elt F)) ]

/-- All of them, in order. -/
abbrev ops : List (HloOp τ sig (Elt F)) := ops1 ++ (ops2 ++ ops3)

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops1a_sub : (ops1a : List (HloOp τ sig (Elt F))).Forall fun op => op.bufs ⊆ tcRefs τ sig :=
  ⟨nullary_bufs_sub .., binary_bufs_sub .., nullary_bufs_sub .., unary_bufs_sub .., binary_bufs_sub ..⟩
theorem ops1b_sub : (ops1b : List (HloOp τ sig (Elt F))).Forall fun op => op.bufs ⊆ tcRefs τ sig :=
  ⟨unary_bufs_sub .., unary_bufs_sub .., binary_bufs_sub .., unary_bufs_sub ..⟩
theorem ops1c_sub : (ops1c : List (HloOp τ sig (Elt F))).Forall fun op => op.bufs ⊆ tcRefs τ sig :=
  ⟨nullary_bufs_sub .., binary_bufs_sub .., unary_bufs_sub .., unary_bufs_sub ..⟩
theorem ops1d_sub : (ops1d : List (HloOp τ sig (Elt F))).Forall fun op => op.bufs ⊆ tcRefs τ sig :=
  ⟨unary_bufs_sub .., binary_bufs_sub ..⟩
theorem ops2_sub : (ops2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem ops3_sub : (ops3 : List (HloOp τ sig (Elt F))).Forall fun op => op.bufs ⊆ tcRefs τ sig :=
  ⟨reshape_bufs_sub .., nullary_bufs_sub .., binary_bufs_sub .., unary_bufs_sub .., nullary_bufs_sub .., binary_bufs_sub ..⟩
theorem ops_sub : (ops : List (HloOp τ sig (Elt F))).Forall fun op => op.bufs ⊆ tcRefs τ sig :=
  List.forall_append.mpr ⟨List.forall_append.mpr ⟨ops1a_sub, List.forall_append.mpr ⟨ops1b_sub, List.forall_append.mpr ⟨ops1c_sub, ops1d_sub⟩⟩⟩,
    List.forall_append.mpr ⟨ops2_sub, ops3_sub⟩⟩

/-! ## Each stretch read back, from any contents W -/

/-- Carrying contents to a buffer's own type and back changes nothing. -/
theorem ofBuf_toBuf {T : BufTy} (x : TRef sig T) (v : T.Contents (Elt F)) : x.ofBuf (x.toBuf v) = v :=
  (cast_cast _ _ v).trans (cast_eq _ v)
/-- At the inputs' buffer the carrying is the identity. -/
theorem ofBuf_arg0 (w : (⟨S8192x32000, .f32⟩ : BufTy).Contents (Elt F)) :
    (TRef.of (sig := sig) (T := ⟨S8192x32000, .f32⟩) main_arg0).ofBuf w = w := rfl
/-- At the row maxima's buffer the carrying is the identity. -/
theorem toBuf_v2 (v : (⟨S8192, .f32⟩ : BufTy).Contents (Elt F)) :
    (TRef.of (sig := sig) (T := ⟨S8192, .f32⟩) main_call0_v2).toBuf v = v := rfl

/-- The row maxima. The maximum over a row is a fold over the whole array's index set, so the two sides are first made
    the same expression (the carryings removed, the stages written out) and then compared as written. -/
theorem res1a (W : Valuation τ sig (Elt F)) :
    after ops1a W (Proc.devRef .tc main_call0_v2) = ReadP.val_main_call0_v2 (F := F) (W (Proc.devRef .tc main_arg0)) := by
  after_results_simp
  simp only [ofBuf_toBuf]
  rw [ofBuf_arg0]
  refine (toBuf_v2 _).trans ?_
  unfold ReadP.val_main_call0_v2 ReadP.val_main_call0_v1 ReadP.val_main_call0_v0 ReadP.val_main_call0_cst ReadP.val_main_call0_cst_0
  with_reducible rfl
theorem keep1a_arg0 (W : Valuation τ sig (Elt F)) : after ops1a W (Proc.devRef .tc main_arg0) = W (Proc.devRef .tc main_arg0) := by
  after_results_simp <;> rfl
theorem keep1a_arg1 (W : Valuation τ sig (Elt F)) : after ops1a W (Proc.devRef .tc main_arg1) = W (Proc.devRef .tc main_arg1) := by
  after_results_simp <;> rfl
theorem res1b_v5 (W : Valuation τ sig (Elt F)) :
    after ops1b W (Proc.devRef .tc main_call0_v5) = subf (W (Proc.devRef .tc main_arg0)) (broadcastInDim S8192x32000 ![0, 1] bcast_S8192x1_S8192x32000_0_1 (broadcastInDim S8192x1 ![0] bcast_S8192_S8192x1_0 (W (Proc.devRef .tc main_call0_v2)))) := by
  after_results_simp <;> rfl
theorem res1b_v6 (W : Valuation τ sig (Elt F)) :
    after ops1b W (Proc.devRef .tc main_call0_v6) = Host.exp (subf (W (Proc.devRef .tc main_arg0)) (broadcastInDim S8192x32000 ![0, 1] bcast_S8192x1_S8192x32000_0_1 (broadcastInDim S8192x1 ![0] bcast_S8192_S8192x1_0 (W (Proc.devRef .tc main_call0_v2))))) := by
  after_results_simp <;> rfl
theorem keep1b_arg0 (W : Valuation τ sig (Elt F)) : after ops1b W (Proc.devRef .tc main_arg0) = W (Proc.devRef .tc main_arg0) := by
  after_results_simp <;> rfl
theorem keep1b_arg1 (W : Valuation τ sig (Elt F)) : after ops1b W (Proc.devRef .tc main_arg1) = W (Proc.devRef .tc main_arg1) := by
  after_results_simp <;> rfl
theorem res1c (W : Valuation τ sig (Elt F)) :
    after ops1c W (Proc.devRef .tc main_call0_v9)
      = Host.log (broadcastInDim S8192x1 ![0] bcast_S8192_S8192x1_0 (Host.reduceAdd (W (Proc.devRef .tc main_call0_v6)) (ReadP.val_main_call0_cst_1 (F := F)) reducesTo_S8192x32000_S8192_d1 h_S_)) := by
  after_results_simp <;> rfl
theorem keep1c_v5 (W : Valuation τ sig (Elt F)) : after ops1c W (Proc.devRef .tc main_call0_v5) = W (Proc.devRef .tc main_call0_v5) := by
  after_results_simp <;> rfl
theorem keep1c_arg0 (W : Valuation τ sig (Elt F)) : after ops1c W (Proc.devRef .tc main_arg0) = W (Proc.devRef .tc main_arg0) := by
  after_results_simp <;> rfl
theorem keep1c_arg1 (W : Valuation τ sig (Elt F)) : after ops1c W (Proc.devRef .tc main_arg1) = W (Proc.devRef .tc main_arg1) := by
  after_results_simp <;> rfl
theorem res1d (W : Valuation τ sig (Elt F)) :
    after ops1d W (Proc.devRef .tc main_v0)
      = subf (W (Proc.devRef .tc main_call0_v5)) (broadcastInDim S8192x32000 ![0, 1] bcast_S8192x1_S8192x32000_0_1 (W (Proc.devRef .tc main_call0_v9))) := by
  after_results_simp <;> rfl
theorem keep1d_arg0 (W : Valuation τ sig (Elt F)) : after ops1d W (Proc.devRef .tc main_arg0) = W (Proc.devRef .tc main_arg0) := by
  after_results_simp <;> rfl
theorem keep1d_arg1 (W : Valuation τ sig (Elt F)) : after ops1d W (Proc.devRef .tc main_arg1) = W (Proc.devRef .tc main_arg1) := by
  after_results_simp <;> rfl

/-- The log-softmax stretch: its result is the log-softmax stage of the inputs it found. -/
theorem res1 (W : Valuation τ sig (Elt F)) :
    after ops1 W (Proc.devRef .tc main_v0) = ReadP.val_main_v0 (F := F) (W (Proc.devRef .tc main_arg0)) := by
  rw [after_append, after_append, after_append, res1d, res1c, keep1c_v5, res1b_v5, res1b_v6, res1a, keep1a_arg0]
  rfl
theorem keep1_arg0 (W : Valuation τ sig (Elt F)) : after ops1 W (Proc.devRef .tc main_arg0) = W (Proc.devRef .tc main_arg0) := by
  rw [after_append, after_append, after_append, keep1d_arg0, keep1c_arg0, keep1b_arg0, keep1a_arg0]
theorem keep1_arg1 (W : Valuation τ sig (Elt F)) : after ops1 W (Proc.devRef .tc main_arg1) = W (Proc.devRef .tc main_arg1) := by
  rw [after_append, after_append, after_append, keep1d_arg1, keep1c_arg1, keep1b_arg1, keep1a_arg1]

theorem res2 (W : Valuation τ sig (Elt F)) :
    after ops2 W (Proc.devRef .tc main_v2)
      = select (ReadP.val_main_call1_v12 (F := F) (W (Proc.devRef .tc main_arg1)))
          (Host.gather gather_S8192x32000_S8192x1x1_S8192x1_n_1_0_0_1_2_11 (W (Proc.devRef .tc main_v0)) (ReadP.val_main_call1_v5 (F := F) (W (Proc.devRef .tc main_arg1))))
          (ReadP.val_main_call1_v14 (F := F)) := by
  after_results_simp <;> rfl
theorem keep2_arg0 (W : Valuation τ sig (Elt F)) : after ops2 W (Proc.devRef .tc main_arg0) = W (Proc.devRef .tc main_arg0) := by
  after_results_simp <;> rfl
theorem keep2_arg1 (W : Valuation τ sig (Elt F)) : after ops2 W (Proc.devRef .tc main_arg1) = W (Proc.devRef .tc main_arg1) := by
  after_results_simp <;> rfl

theorem res3 (W : Valuation τ sig (Elt F)) :
    after ops3 W (Proc.devRef .tc main_v6)
      = Host.divf (Host.negf (Host.reduceAdd (shapeCast _ (W (Proc.devRef .tc main_v2)) shapeCasts_S8192x1_S8192) (ReadP.val_main_cst (F := F)) reducesTo_S8192_S_d0 h_S_)) (ReadP.val_main_cst_0 (F := F)) := by
  after_results_simp <;> rfl
theorem keep3_arg0 (W : Valuation τ sig (Elt F)) : after ops3 W (Proc.devRef .tc main_arg0) = W (Proc.devRef .tc main_arg0) := by
  after_results_simp <;> rfl
theorem keep3_arg1 (W : Valuation τ sig (Elt F)) : after ops3 W (Proc.devRef .tc main_arg1) = W (Proc.devRef .tc main_arg1) := by
  after_results_simp <;> rfl

/-! ## The stretches joined -/

/-- The result after all the operations is the last stage of what the two arguments held. -/
theorem value (W : Valuation τ sig (Elt F)) :
    after ops W (Proc.devRef .tc main_v6)
      = ReadP.val_main_v6 (F := F) (W (Proc.devRef .tc main_arg0)) (W (Proc.devRef .tc main_arg1)) := by
  rw [after_append, after_append, res3, res2, res1, keep1_arg1]
  rfl

theorem kept_arg0 (W : Valuation τ sig (Elt F)) : after ops W (Proc.devRef .tc main_arg0) = W (Proc.devRef .tc main_arg0) := by
  rw [after_append, after_append, keep3_arg0, keep2_arg0, keep1_arg0]
theorem kept_arg1 (W : Valuation τ sig (Elt F)) : after ops W (Proc.devRef .tc main_arg1) = W (Proc.devRef .tc main_arg1) := by
  rw [after_append, after_append, keep3_arg1, keep2_arg1, keep1_arg1]

/-- On every device, from any memory with zero counters: every weakly fair execution of the reference terminates with
    its result at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = ReadP.val_main_v6 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (value _), (h c main_arg0).trans (kept_arg0 _), (h c main_arg1).trans (kept_arg1 _)⟩)
    (run_seq scopedRefs_eq scopedSems_eq defs main (fun _ => ops) main_eq (fun _ => ops_sub) m ρ)

end Cert.ReferenceIdeal.RunP

end
-- ==== Proof.Spec.lean ====
/-
  The mathematics both programs compute, over the extended reals.
  For an array x of R rows and 32000 columns and a column tc r chosen in every row r:
    rowMax x r    the largest entry of row r (the supremum of the row; the empty bound is -∞);
    rowSum x r    the sum over the row of exp (x r c - rowMax x r);
    rowTerm x tc r = (x r (tc r) - rowMax x r) - log (rowSum x r), the log-softmax of row r at column tc r.
  The loss is minus the sum of the row terms over all 8192 rows, divided by 3.
  A row's column is its target word read as a natural number (reduced modulo 32000 so that it is a column for every
  word; for targets in range the reduction changes nothing).
-/
import Idealize.ShloMosaic.PureOps.Ideal
import Idealize.ShloMosaic.PureOps.Ideal.Laws
import Idealize.ShloMosaic.Lib.ValueIdx
import Idealize.ShloMosaic.Lib.ValueIdxRank1

noncomputable section

open scoped BigOperators

namespace Cert.Spec

open Idealize.ShloMosaic Idealize.ShloMosaic.ValueIdx

/-- The column a 32-bit word names. -/
def colOf (w : BitVec 32) : Fin 32000 := ⟨w.toNat % 32000, Nat.mod_lt _ (by decide)⟩

theorem colOf_val_of_lt (w : BitVec 32) (h : w.toNat < 32000) : (colOf w).val = w.toNat := Nat.mod_eq_of_lt h

/-- The largest entry of row r. -/
def rowMax {R : Nat} (x : (⟨2, ![R, 32000]⟩ : Shape).Idx → EReal) (r : Fin R) : EReal :=
  (Finset.univ : Finset (Fin 32000)).sup fun c => x (ix2 r c)

/-- The sum over row r of the exponentials of the entries shifted by the row's maximum. -/
def rowSum {R : Nat} (x : (⟨2, ![R, 32000]⟩ : Shape).Idx → EReal) (r : Fin R) : EReal :=
  ∑ c : Fin 32000, Ideal.exp (x (ix2 r c) - rowMax x r)

/-- The log-softmax of row r at the column tc r. -/
def rowTerm {R : Nat} (x : (⟨2, ![R, 32000]⟩ : Shape).Idx → EReal) (tc : Fin R → Fin 32000) (r : Fin R) : EReal :=
  (x (ix2 r (tc r)) - rowMax x r) - Ideal.log (rowSum x r)

/-- Each row's column from the array of targets. -/
def col (t : (⟨1, ![8192]⟩ : Shape).Idx → BitVec 32) (r : Fin 8192) : Fin 32000 := colOf (t (ix1 r))

/-- The sum of the row terms over all rows. -/
def total (x : (⟨2, ![8192, 32000]⟩ : Shape).Idx → EReal) (t : (⟨1, ![8192]⟩ : Shape).Idx → BitVec 32) : EReal :=
  ∑ r : Fin 8192, rowTerm x (col t) r

/-- The loss: minus the total, over 3 (the divisor kept as the float word both programs carry). -/
def result (x : (⟨2, ![8192, 32000]⟩ : Shape).Idx → EReal) (t : (⟨1, ![8192]⟩ : Shape).Idx → BitVec 32) :
    FVec Ideal (⟨0, ![]⟩ : Shape) .f32 :=
  Host.divf (F := Ideal) (Host.negf (F := Ideal) (fun _ => total x t)) (constant (F := Ideal) (⟨0, ![]⟩ : Shape) .f32 0x40400000#32)

/-- The sum of the row terms of block p: rows 64 p, …, 64 p + 63 (the row number reduced modulo 8192, so that the
    expression is a row for every p; for p < 128 nothing is reduced). -/
def blockSum (x : (⟨2, ![8192, 32000]⟩ : Shape).Idx → EReal) (t : (⟨1, ![8192]⟩ : Shape).Idx → BitVec 32) (p : Nat) : EReal :=
  ∑ r : Fin 64, rowTerm x (col t) ⟨(64 * p + r.val) % 8192, Nat.mod_lt _ (by decide)⟩

end Cert.Spec

end
-- ==== Proof.RefValue.lean ====
/-
  The reference program's result, stage by stage, is the loss: its log-softmax at (r, c) is
  (x r c - max of row r) - log (sum over the row of exp (x r c' - max of row r)); with every target a column the
  index normalisation leaves the target as it is, the in-range test holds, and the gather reads the log-softmax at the
  row's target column; the sum over the rows, negated and divided by 3, is the loss.
-/
import proofs.«426357_j19499151524481_3_alg».proof.Proof.RefRead
import proofs.«426357_j19499151524481_3_alg».proof.Proof.Spec
import Idealize.ShloMosaic.PureOps.Reduce
import Idealize.ShloMosaic.Lib.Affine
import Idealize.ShloMosaic.Lib.StableHlo.Predicate

noncomputable section

open scoped BigOperators

namespace Cert.ReferenceIdeal.RV

open Idealize.ShloMosaic Idealize.ShloMosaic.ValueIdx Cert.ReferenceIdeal Cert.ReferenceIdeal.Gen

/-- The word of minus infinity. -/
theorem ofBits_negInf : Ideal.ofBits .f32 0xFF800000#32 = (⊥ : EReal) := by
  simp [Ideal.ofBits, Ideal.ieee]

/-! ## The log-softmax at an entry -/

/-- Reducing the columns of the array leaves its rows. -/
theorem reduces_rows : S8192x32000.Reduces [1] S8192 := by decide

/-- Row r with column k put back is the entry (r, k). -/
theorem lift_rows (r : Fin 8192) (k : Fin 32000) :
    reduces_rows.lift (ix1 r) k = ix2 r k := by
  funext a
  refine Fin.ext ?_
  match a with
  | ⟨0, _⟩ => rfl
  | ⟨1, _⟩ => rfl

/-- The fold of max from minus infinity is the supremum. -/
theorem fold_max_bot {ι : Type} (s : Finset ι) (f : ι → EReal) :
    s.fold max ⊥ f = s.sup f := by
  rfl

/-- The reduction by maximum over the columns, at row r, is the largest entry of the row. -/
theorem rowMax_red (x0 : (⟨S8192x32000, .f32⟩ : BufTy).Contents (Elt Ideal)) (r : Fin 8192) :
    ReadP.val_main_call0_v0 (F := Ideal) x0 (ix1 r) = Cert.Spec.rowMax x0 r := by
  unfold ReadP.val_main_call0_v0
  rw [Host.reduce_eq_fold_single _ _ _ reducesTo_S8192x32000_S8192_d1 reduces_rows h_S_ (ix1 r)]
  rw [ReadP.val_main_call0_cst_apply, Ideal.ofBits_def, ofBits_negInf]
  unfold Cert.Spec.rowMax
  rw [← fold_max_bot]
  refine congrArg (fun f => Finset.fold max (⊥ : EReal) f (Finset.univ : Finset (Fin 32000))) ?_
  exact funext fun k => congrArg x0 (lift_rows r k)

/-- The maximum with minus infinity changes nothing. -/
theorem rowMax_eq (x0 : (⟨S8192x32000, .f32⟩ : BufTy).Contents (Elt Ideal)) (r : Fin 8192) :
    ReadP.val_main_call0_v2 (F := Ideal) x0 (ix1 r) = Cert.Spec.rowMax x0 r := by
  rw [ReadP.val_main_call0_v2_apply, ReadP.val_main_call0_v1_apply, ReadP.val_main_call0_cst_0_apply, Ideal.ofBits_def,
    ofBits_negInf, Ideal.maximumf_def, rowMax_red, max_bot_left]

/-- The row maximum broadcast along the row. -/
theorem rowMax_bcast (x0 : (⟨S8192x32000, .f32⟩ : BufTy).Contents (Elt Ideal)) (r : Fin 8192) (c : Fin 32000) :
    ReadP.val_main_call0_v4 (F := Ideal) x0 (ix2 r c) = Cert.Spec.rowMax x0 r := by
  rw [ReadP.val_main_call0_v4_apply, ReadP.val_main_call0_v3_apply, ← rowMax_eq]
  refine congrArg (ReadP.val_main_call0_v2 (F := Ideal) x0) ?_
  funext a
  refine Fin.ext ?_
  match a with
  | ⟨0, _⟩ => rfl

/-- The entry shifted by its row's maximum. -/
theorem shifted_eq (x0 : (⟨S8192x32000, .f32⟩ : BufTy).Contents (Elt Ideal)) (r : Fin 8192) (c : Fin 32000) :
    ReadP.val_main_call0_v5 (F := Ideal) x0 (ix2 r c) = x0 (ix2 r c) - Cert.Spec.rowMax x0 r := by
  rw [ReadP.val_main_call0_v5_apply, Ideal.subf_def, rowMax_bcast]

/-- The sum over the columns of the exponentials of the shifted entries, from zero, is the row's sum. -/
theorem rowSum_eq (x0 : (⟨S8192x32000, .f32⟩ : BufTy).Contents (Elt Ideal)) (r : Fin 8192) :
    ReadP.val_main_call0_v7 (F := Ideal) x0 (ix1 r) = Cert.Spec.rowSum x0 r := by
  rw [ReadP.val_main_call0_v7_apply, ReadP.val_main_call0_cst_1_apply, Ideal.ofBits_def, Ideal.ofBits_zero_f32, zero_add]
  unfold Cert.Spec.rowSum
  refine Finset.sum_congr rfl fun k _ => ?_
  have hk : ReadP.idx_main_call0_v7 (ix1 r) k = ix2 r k := by
    funext a
    refine Fin.ext ?_
    match a with
    | ⟨0, _⟩ => rfl
    | ⟨1, _⟩ => rfl
  rw [hk, ReadP.val_main_call0_v6_apply, Ideal.hostUnary_exp_def, shifted_eq]

/-- The log-softmax at (r, c): the shifted entry minus the logarithm of the row's sum. -/
theorem logSoftmax_eq (x0 : (⟨S8192x32000, .f32⟩ : BufTy).Contents (Elt Ideal)) (r : Fin 8192) (c : Fin 32000) :
    ReadP.val_main_v0 (F := Ideal) x0 (ix2 r c)
      = (x0 (ix2 r c) - Cert.Spec.rowMax x0 r) - Ideal.log (Cert.Spec.rowSum x0 r) := by
  rw [ReadP.val_main_v0_apply, Ideal.subf_def, shifted_eq, ReadP.val_main_call0_v10_apply, ReadP.val_main_call0_v9_apply,
    Ideal.hostUnary_log_def, ReadP.val_main_call0_v8_apply]
  have hidx : ReadP.idx_main_call0_v8 (ReadP.idx_main_call0_v10 (ix2 r c)) = ix1 r := by
    funext a
    refine Fin.ext ?_
    match a with
    | ⟨0, _⟩ => rfl
  rw [hidx, rowSum_eq]

/-! ## The gather at a row -/

/-- The dimension numbers of the reference's gather, under a short name. -/
abbrev takeD : GatherDims S8192x32000 S8192x1x1 S8192x1 := gather_S8192x32000_S8192x1x1_S8192x1_n_1_0_0_1_2_11

/-- The row axis is the batching axis and is not named by the start index map; the column axis is collapsed, named by
    the start index map and not a batching axis. -/
theorem takeD_row_not_start : (⟨0, by decide⟩ : Fin 2) ∉ takeD.startIndexMap := by decide
theorem takeD_row_batching : (⟨0, by decide⟩ : Fin 2) ∈ takeD.operandBatchingDims := by decide
theorem takeD_col_start : (⟨1, by decide⟩ : Fin 2) ∈ takeD.startIndexMap := by decide
theorem takeD_col_not_batching : (⟨1, by decide⟩ : Fin 2) ∉ takeD.operandBatchingDims := by decide
theorem takeD_col_collapsed : (⟨1, by decide⟩ : Fin 2) ∈ takeD.collapsedSliceDims := by decide

/-- The gather of the reference read at row r: the operand at row r and the column the start index names, read signed
    and clamped into the row. -/
theorem gather_apply {α : Type} {w : Nat} (x : S8192x32000.Idx → α) (idx : IVec S8192x1x1 w) (r : Fin 8192) :
    Host.gather gather_S8192x32000_S8192x1x1_S8192x1_n_1_0_0_1_2_11 x idx (ix2 r (0 : Fin 1))
      = x (ix2 r ⟨min (idx (ix3 r (0 : Fin 1) (0 : Fin 1))).toInt.toNat (32000 - 1), by omega⟩) := by
  unfold Host.gather
  refine congrArg x ?_
  funext ax
  refine Fin.ext ?_
  show takeD.start (ix2 r (0 : Fin 1)) idx ax + takeD.batchCoord (ix2 r (0 : Fin 1)) ax
    + takeD.offCoord (ix2 r (0 : Fin 1)) ax = _
  match ax with
  | ⟨0, _⟩ =>
    -- the row axis is the batching axis: no start, no offset, the batch coordinate is the row
    rw [GatherDims.offCoord_eq_zero _ _ _ (fun h => ((GatherDims.mem_sKept _ _).mp h).2 takeD_row_batching),
      Nat.add_zero]
    unfold GatherDims.start
    rw [dif_neg takeD_row_not_start, Nat.zero_add]
    unfold GatherDims.batchCoord
    rw [dif_pos takeD_row_batching]
    rfl
  | ⟨1, _⟩ =>
    -- the column axis is collapsed and named by the start index map: the clamped start index alone
    rw [GatherDims.offCoord_eq_zero _ _ _ (fun h => ((GatherDims.mem_sKept _ _).mp h).1 takeD_col_collapsed),
      Nat.add_zero, GatherDims.batchCoord_eq_zero _ _ _ takeD_col_not_batching, Nat.add_zero]
    unfold GatherDims.start
    rw [dif_pos takeD_col_start]
    have hsi : takeD.siIdx (ix2 r (0 : Fin 1)) ⟨List.idxOf (⟨1, by decide⟩ : Fin 2) takeD.startIndexMap,
        List.idxOf_lt_length_iff.2 takeD_col_start⟩ = ix3 r (0 : Fin 1) (0 : Fin 1) := by
      funext c; refine Fin.ext ?_
      match c with
      | ⟨0, _⟩ => rfl
      | ⟨1, _⟩ => rfl
      | ⟨2, _⟩ => rfl
    rw [hsi]
    rfl

/-! ## The target words: a word below 32000 is a column as it stands -/

open Idealize.ShloMosaic.StableHlo in
/-- A word below 32000 is not negative read signed. -/
theorem word_slt_zero (w : BitVec 32) (h : w.toNat < 32000) : IntOp.cmpi .slt w 0#32 = 0#1 := by
  refine eq_zero_of_ne_one fun e => ?_
  have h2 := (Predicate.slt_iff_toNat (a := w) (b := 0#32) (by omega) (by decide)).1 e
  exact absurd h2 (Nat.not_lt_zero _)

open Idealize.ShloMosaic.StableHlo in
/-- A word below 32000 is at least 0 read signed. -/
theorem word_sge_zero (w : BitVec 32) (h : w.toNat < 32000) : IntOp.cmpi .sge w 0#32 = 1#1 :=
  (Predicate.sge_iff_toNat (a := w) (b := 0#32) (by omega) (by decide)).2 (Nat.zero_le _)

open Idealize.ShloMosaic.StableHlo in
/-- A word below 32000 is at most 31999 read signed. -/
theorem word_sle_last (w : BitVec 32) (h : w.toNat < 32000) : IntOp.cmpi .sle w 31999#32 = 1#1 :=
  (Predicate.sle_iff_toNat (a := w) (b := 31999#32) (by omega) (by decide)).2
    (by show w.toNat ≤ 31999; omega)

open Idealize.ShloMosaic.StableHlo in
/-- Read signed and clamped into the row, a word below 32000 is itself. -/
theorem word_clamp (w : BitVec 32) (h : w.toNat < 32000) : min w.toInt.toNat (32000 - 1) = w.toNat := by
  rw [Predicate.toInt_eq_toNat_of_lt (a := w) (by omega), Int.toNat_natCast]
  omega

/-- The normalised index at row r is the row's target, when the target is a column. -/
theorem target_eq (x1 : (⟨S8192, .i32⟩ : BufTy).Contents (Elt Ideal)) (r : Fin 8192) (a b : Fin 1)
    (h : (x1 (ix1 r) : BitVec 32).toNat < 32000) :
    ReadP.val_main_call1_v5 (F := Ideal) x1 (ix3 r a b) = x1 (ix1 r) := by
  have hidx : ReadP.idx_main_v1 (ReadP.idx_main_call1_v5 (ix3 r a b)) = ix1 r := by
    funext d
    refine Fin.ext ?_
    match d with
    | ⟨0, _⟩ =>
      have ha : a.val < 1 := a.isLt
      have hb : b.val < 1 := b.isLt
      show ((r.val * 1 + a.val) * 1 + b.val) / 1 = r.val
      omega
  rw [ReadP.val_main_call1_v5_apply, ReadP.val_main_call1_v4_apply, ReadP.val_main_call1_v1_apply,
    ReadP.val_main_v1_apply, ReadP.val_main_call1_v0_apply, ReadP.val_main_call1_c_apply, hidx, word_slt_zero _ h,
    select_zero]

/-- The in-range test holds everywhere, when every target is a column. -/
theorem inRange_all (x1 : (⟨S8192, .i32⟩ : BufTy).Contents (Elt Ideal))
    (hrange : ∀ r : Fin 8192, (x1 (ix1 r) : BitVec 32).toNat < 32000) (i : S8192x1x1.Idx) :
    ReadP.val_main_call1_v11 (F := Ideal) x1 i = 1#1 := by
  obtain ⟨r, a, b, rfl⟩ : ∃ (r : Fin 8192) (a b : Fin 1), i = ix3 r a b := ⟨i 0, i 1, i 2, eq_ix3 i⟩
  rw [ReadP.val_main_call1_v11_apply, ReadP.val_main_call1_v7_apply, ReadP.val_main_call1_v10_apply,
    ReadP.val_main_call1_v6_apply, ReadP.val_main_call1_c_2_apply, ReadP.val_main_call1_v9_apply,
    ReadP.val_main_call1_v8_apply, ReadP.val_main_call1_c_1_apply, target_eq x1 r a b (hrange r),
    word_sge_zero _ (hrange r), word_sle_last _ (hrange r)]
  decide

/-- A left fold by `and` from 1 over bits that are all 1 is 1. -/
theorem foldl_andi_ones {ι : Type} (f : ι → BitVec 1) :
    ∀ l : List ι, (∀ n ∈ l, f n = 1#1) → l.foldl (fun acc n => IntOp.andi acc (f n)) 1#1 = 1#1
  | [], _ => rfl
  | n :: l, h => by
    have e : IntOp.andi 1#1 (f n) = 1#1 := by rw [h n (List.mem_cons_self ..)]; decide
    rw [List.foldl_cons, e]
    exact foldl_andi_ones f l fun m hm => h m (List.mem_cons_of_mem _ hm)

/-- The reduced in-range test holds everywhere. -/
theorem mask_all (x1 : (⟨S8192, .i32⟩ : BufTy).Contents (Elt Ideal))
    (hrange : ∀ r : Fin 8192, (x1 (ix1 r) : BitVec 32).toNat < 32000) (j : S8192x1.Idx) :
    ReadP.val_main_call1_v12 (F := Ideal) x1 j = 1#1 := by
  unfold ReadP.val_main_call1_v12
  rw [Host.reduce_eq_foldl, ReadP.val_main_call1_c_3_apply]
  exact foldl_andi_ones _ _ fun n _ => inRange_all x1 hrange n

/-! ## The gathered log-softmax, the sum over the rows, the loss -/

/-- The value taken at row r is the row's term of the loss. -/
theorem taken_eq (x0 : (⟨S8192x32000, .f32⟩ : BufTy).Contents (Elt Ideal)) (x1 : (⟨S8192, .i32⟩ : BufTy).Contents (Elt Ideal))
    (hrange : ∀ r : Fin 8192, (x1 (ix1 r) : BitVec 32).toNat < 32000) (r : Fin 8192) :
    ReadP.val_main_v2 (F := Ideal) x0 x1 (ix2 r (0 : Fin 1)) = Cert.Spec.rowTerm x0 (Cert.Spec.col x1) r := by
  rw [ReadP.val_main_v2_apply, mask_all x1 hrange, select_one]
  unfold ReadP.val_main_call1_v13
  rw [gather_apply]
  have hcol : (⟨min (ReadP.val_main_call1_v5 (F := Ideal) x1 (ix3 r (0 : Fin 1) (0 : Fin 1))).toInt.toNat (32000 - 1),
      by omega⟩ : Fin 32000) = Cert.Spec.col x1 r := by
    refine Fin.ext ?_
    show min (ReadP.val_main_call1_v5 (F := Ideal) x1 (ix3 r (0 : Fin 1) (0 : Fin 1))).toInt.toNat (32000 - 1)
      = (Cert.Spec.colOf (x1 (ix1 r))).val
    rw [target_eq x1 r 0 0 (hrange r), word_clamp _ (hrange r), Cert.Spec.colOf_val_of_lt _ (hrange r)]
  rw [hcol, logSoftmax_eq]
  rfl

/-- The taken values as a vector over the rows. -/
theorem takenRow_eq (x0 : (⟨S8192x32000, .f32⟩ : BufTy).Contents (Elt Ideal)) (x1 : (⟨S8192, .i32⟩ : BufTy).Contents (Elt Ideal))
    (hrange : ∀ r : Fin 8192, (x1 (ix1 r) : BitVec 32).toNat < 32000) (r : Fin 8192) :
    ReadP.val_main_v3 (F := Ideal) x0 x1 (ix1 r) = Cert.Spec.rowTerm x0 (Cert.Spec.col x1) r := by
  have hidx : ReadP.idx_main_v3 (ix1 r) = ix2 r (0 : Fin 1) := by
    funext d
    refine Fin.ext ?_
    match d with
    | ⟨0, _⟩ => exact Nat.div_one _
    | ⟨1, _⟩ => rfl
  rw [ReadP.val_main_v3_apply, hidx, taken_eq x0 x1 hrange]

/-- The sum of the taken values is the sum of the row terms. -/
theorem total_eq (x0 : (⟨S8192x32000, .f32⟩ : BufTy).Contents (Elt Ideal)) (x1 : (⟨S8192, .i32⟩ : BufTy).Contents (Elt Ideal))
    (hrange : ∀ r : Fin 8192, (x1 (ix1 r) : BitVec 32).toNat < 32000) :
    ReadP.val_main_v4 (F := Ideal) x0 x1 = fun _ => Cert.Spec.total x0 x1 := by
  funext i
  rw [ReadP.val_main_v4_apply, ReadP.val_main_cst_apply, Ideal.ofBits_def, Ideal.ofBits_zero_f32, zero_add]
  unfold Cert.Spec.total
  refine (Equiv.sum_comp (idxEquiv1 (n := 8192)).symm (ReadP.val_main_v3 (F := Ideal) x0 x1)).symm.trans ?_
  exact Finset.sum_congr rfl fun r _ => takenRow_eq x0 x1 hrange r

/-- The reference's last stage is the loss, when every target is a column. -/
theorem result_eq (x0 : (⟨S8192x32000, .f32⟩ : BufTy).Contents (Elt Ideal)) (x1 : (⟨S8192, .i32⟩ : BufTy).Contents (Elt Ideal))
    (hrange : ∀ r : Fin 8192, (x1 (ix1 r) : BitVec 32).toNat < 32000) :
    Cert.ReferenceIdeal.ReadP.val_main_v6 (F := Ideal) x0 x1 = Cert.Spec.result x0 x1 := by
  unfold ReadP.val_main_v6 ReadP.val_main_v5 ReadP.val_main_cst_0 Cert.Spec.result
  rw [total_eq x0 x1 hrange]

end Cert.ReferenceIdeal.RV

end
-- ==== Proof.PreRange.lean ====
/-
  What the precondition says of the targets: it is the conjunction of "every input is finite" and "every target t
  has 0 ≤ t < 32000" (signed); a word that is non-negative and below 32000 as a signed number is below 32000 as a
  natural number.
-/
import proofs.«426357_j19499151524481_3_alg».proof.Pre_finite_inputs
import proofs.«426357_j19499151524481_3_alg».proof.Proof.Gen.Pre_finite_inputs
import Idealize.ShloMosaic.Lib.ValueIdx
import Idealize.ShloMosaic.Lib.ReduceAll
import Idealize.ShloMosaic.Lib.StableHlo.Predicate

noncomputable section

open scoped BigOperators

namespace Cert.PreRange

open Idealize.ShloMosaic Idealize.ShloMosaic.ValueIdx

/-- The rank-0 shape has one index. -/
theorem subsingleton_scalar_idx : Subsingleton Cert.Pre_finite_inputs.S_.Idx :=
  ⟨fun a b => funext fun d => d.elim0⟩

/-- A 32-bit word that is, as a signed number, at least 0 and below 32000 is below 32000 as a natural number:
    a non-negative signed value is the unsigned value. -/
theorem toNat_lt_of_signed (w : BitVec 32) (h0 : IntOp.cmpi .sge w 0#32 = 1#1)
    (h1 : IntOp.cmpi .slt w 32000#32 = 1#1) : w.toNat < 32000 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (32000#32 : BitVec 32).toInt = 32000 := by decide
  rw [e0] at h0
  rw [e1] at h1
  rw [BitVec.toInt_eq_toNat_cond] at h0 h1
  have hw := w.isLt
  split at h0 <;> omega

/-- Under the precondition every target, read as a natural number, is below 32000. -/
theorem range_of_pre {F : FTy → Type} [FloatOps F] [Cert.Pre_finite_inputs.Facts]
    (x : FVec F Cert.Pre_finite_inputs.S8192x32000 .f32) (t : IVec Cert.Pre_finite_inputs.S8192 32)
    (h : Cert.Pre_finite_inputs.fn (F := F) x t = fun _ => 1#1) :
    ∀ r : Fin 8192, (t (ix1 r)).toNat < 32000 := by
  intro r
  haveI := subsingleton_scalar_idx
  -- the predicate at its one index: a conjunction of the two "all" reductions
  have h0 := congrFun h ix0
  unfold Cert.Pre_finite_inputs.fn at h0
  dsimp only at h0
  change IntOp.andi _ _ = 1#1 at h0
  -- the second conjunct is the and-reduction over the targets; every element of it is 1
  have h1 := (IntOp.andi_eq_one.1 h0).2
  have h2 := Host.reduce_andi_all _ _ _ _ _ h1 (ix1 r)
  -- at row r the element is the conjunction of the two signed comparisons against the broadcast constants
  change IntOp.andi (IntOp.cmpi .sge (t (ix1 r)) 0#32) (IntOp.cmpi .slt (t (ix1 r)) 32000#32) = 1#1 at h2
  have h3 := IntOp.andi_eq_one.1 h2
  exact toNat_lt_of_signed _ h3.1 h3.2

end Cert.PreRange

end
-- ==== Proof.KLoops.lean ====
/-
  The kernel body's two counted loops and its closing arithmetic as pure functions of the point's blocks.
  A point holds a block of 64 rows and 32000 columns; each loop walks it in ten chunks of 3200 columns.
  chunkOf x k is chunk k (columns 3200 k, …, 3200 k + 3199); maxLoop folds the chunks' row maxima from -∞;
  sumLoop folds, with the final maxima, the chunks' sums of shifted exponentials and the chunks' picked entries;
  pointUpdate is what the point then stores in the 8 × 128 accumulator held before at xs.
-/
import proofs.«426357_j19499151524481_3_alg».proof.Proof.Gen.KernelIdeal.Skeleton
import Idealize.ShloMosaic.Lib.ValueIdx

noncomputable section

namespace Cert.KernelIdeal.KL

open Idealize.ShloMosaic Idealize.ShloMosaic.ValueIdx Cert.KernelIdeal Cert.KernelIdeal.Gen

variable {F : FTy → Type} [FloatOps F]

/-- Chunk k of a block: its columns 3200 k, …, 3200 k + 3199 (the column reduced modulo 32000, so that the
    expression is a column for every k; for k < 10 nothing is reduced). -/
def chunkOf (x0 : Vec F S64x32000 .f32) (k : Nat) : Vec F S64x3200 .f32 :=
  fun y => x0 (ix2 (⟨(y 0).val, idx2_lt0 y⟩ : Fin 64) (⟨(3200 * k + (y 1).val) % 32000, Nat.mod_lt _ (by decide)⟩ : Fin 32000))

/-- The running row maxima before chunk k. -/
def maxLoop (ch : Nat → Vec F S64x3200 .f32) : Nat → FVec F S64x1 .f32
  | 0 => k0_pay2
  | k + 1 => k0_pay3 (maxLoop ch k) (ch k)

/-- The running sums of shifted exponentials and the running picked entries before chunk k, given the rows' maxima v7
    and the rows' targets x1. -/
def sumLoop (x1 : Vec F S64x1 .i32) (v7 : FVec F S64x1 .f32) (ch : Nat → Vec F S64x3200 .f32) :
    Nat → FVec F S64x1 .f32 × FVec F S64x1 .f32
  | 0 => (k0_pay4, k0_pay5)
  | k + 1 =>
    if h : k < k0_t2_loop.trips then
      (k0_pay6 v7 (sumLoop x1 v7 ch k).1 (ch k), k0_pay7 x1 ⟨k, h⟩ (sumLoop x1 v7 ch k).2 (ch k))
    else sumLoop x1 v7 ch k

/-- What a point stores in the accumulator it found at xs: xs plus, in entry (0, 0) only, the sum over the block's
    rows of (picked entry - row maximum) - log (sum of shifted exponentials). -/
def pointUpdate (x1 : Vec F S64x1 .i32) (ch : Nat → Vec F S64x3200 .f32) (xs : Vec F S8x128 .f32) : FVec F S8x128 .f32 :=
  k0_pay8 (maxLoop ch 10) (sumLoop x1 (maxLoop ch 10) ch 10).1 (sumLoop x1 (maxLoop ch 10) ch 10).2 xs

end Cert.KernelIdeal.KL

end
-- ==== Proof.KPieces.lean ====
/-
  What each case of the kernel body leaves in the accumulator (and, at a core's last point, in the output block),
  as the pure function pointUpdate of the point's two input blocks and of what the accumulator held before:
  the two counted loops read back trip by trip (each trip loads chunk k of the block and folds it in), then the
  closing arithmetic. At a core's first point the accumulator is first reset to zero.
-/
import proofs.«426357_j19499151524481_3_alg».proof.Proof.Gen.KernelIdeal.Frame
import proofs.«426357_j19499151524481_3_alg».proof.Proof.KLoops
import Idealize.ShloMosaic.Lib.WholeRead

noncomputable section

open scoped BigOperators

namespace Cert.KernelIdeal.KP

open Idealize.ShloMosaic Idealize.ShloMosaic.TcCoe Idealize.ShloMosaic.ValueIdx Cert.KernelIdeal Cert.KernelIdeal.Gen

variable {F : FTy → Type} [FloatOps F]

/-! ## The loops' trip counts and offsets -/

/-- The first loop walks ten chunks. -/
theorem trips1 : k0_t1_loop.trips = 10 := by decide

/-- The second loop walks ten chunks. -/
theorem trips2 : k0_t2_loop.trips = 10 := by decide

/-- The trip count as the body spells it. -/
theorem trips_lit : Scf.trips (0#32) (Scalar.addi 0#32 10#32) 1#32 = 10 := by decide

/-- The column a trip starts at: the word 3200 · k, k < 10, read as a number, is 3200 k (nothing wraps). -/
theorem col_word (k : ℕ) (hk : k < 10) :
    (Scalar.indexCast (Scalar.muli (Scf.iv 0#32 1#32 k) 3200#32)).toNat = 3200 * k := by
  show ((0#32 + BitVec.ofNat 32 k * 1#32) * 3200#32).toNat = 3200 * k
  simp only [BitVec.toNat_mul, BitVec.toNat_add, BitVec.toNat_ofNat]
  omega

/-- Trip k of the first loop loads from row 0, -/
theorem off1_zero (k : Fin k0_t1_loop.trips) : k0_off1 k 0 = 0 := rfl

/-- and from column 3200 k. -/
theorem off1_one (k : Fin k0_t1_loop.trips) : k0_off1 k 1 = 3200 * k.val :=
  col_word k.val (trips1 ▸ k.isLt)

/-- Trip k of the second loop loads from row 0, -/
theorem off2_zero (k : Fin k0_t2_loop.trips) : k0_off2 k 0 = 0 := rfl

/-- and from column 3200 k. -/
theorem off2_one (k : Fin k0_t2_loop.trips) : k0_off2 k 1 = 3200 * k.val :=
  col_word k.val (trips2 ▸ k.isLt)

/-! ## What a trip loads: chunk k of the block -/

/-- A load of 64 × 3200 entries at row 0 and column 3200 k, k < 10, through a whole memref holding the block x0 reads chunk k. -/
theorem load_chunk (arg2 : Memref sig .tc .vmem S64x32000 .f32) (harg2 : arg2.IsWhole) (x0 : Vec F S64x32000 .f32)
    (off : Fin 2 → ℕ) (k : ℕ) (hk : k < 10) (h0 : off 0 = 0) (h1 : off 1 = 3200 * k)
    (inb : ∀ a, off a + S64x3200.size a ≤ S64x32000.size a) :
    View.readAt (Elt F) arg2.view (Rect.unit (s := S64x32000) off S64x3200.size inb).toLoadRect (harg2.unread x0)
      = KL.chunkOf x0 k := by
  funext y
  refine (harg2.readAt_unread x0 _ y).trans ?_
  unfold KL.chunkOf
  refine congrArg x0 ?_
  funext a
  have hy1 : (y 1).val < 3200 := idx2_lt1 y
  match a with
  | ⟨0, _⟩ => exact Fin.ext (by show off 0 + 1 * (y 0).val = (y 0).val; rw [h0]; omega)
  | ⟨1, _⟩ => exact Fin.ext (by show off 1 + 1 * (y 1).val = (3200 * k + (y 1).val) % 32000; rw [h1]; omega)

/-! ## One trip of each loop, over a memref holding the block x0 -/

/-- A trip of the first loop folds chunk k into the running row maxima. -/
theorem trip1_eq (𝒱 : Variants) (c : Dev nD) (bd : Option 𝒱.V) (i : grid0.Coords) (arg2 : Memref sig .tc .vmem S64x32000 .f32) (harg2 : arg2.IsWhole) (arg3 : Memref sig .tc .vmem S64x1 .i32) (harg3 : arg3.IsWhole) (arg4 : Memref sig .tc .vmem S8x128 .f32) (harg4 : arg4.IsWhole) (arg5 : Memref sig .tc .vmem S8x128 .f32) (harg5 : arg5.IsWhole)
    (x0 : Vec F S64x32000 .f32) (k : Fin k0_t1_loop.trips) (acc : FVec F S64x1 .f32) :
    tripR_k0_t1 (F := F) 𝒱 c bd i arg2 harg2 arg3 harg3 arg4 harg4 arg5 harg5 (harg2.unread x0) k acc
      = k0_pay3 acc (KL.chunkOf x0 k.val) := by
  unfold tripR_k0_t1 trip_k0_t1
  dsimp only
  exact congrArg (k0_pay3 acc)
    (load_chunk arg2 harg2 x0 (k0_off1 k) k.val (trips1 ▸ k.isLt) (off1_zero k) (off1_one k) _)

/-- A trip of the second loop folds chunk k into the running sums of shifted exponentials and the running picked entries. -/
theorem trip2_eq (𝒱 : Variants) (c : Dev nD) (bd : Option 𝒱.V) (i : grid0.Coords) (arg2 : Memref sig .tc .vmem S64x32000 .f32) (harg2 : arg2.IsWhole) (arg3 : Memref sig .tc .vmem S64x1 .i32) (harg3 : arg3.IsWhole) (arg4 : Memref sig .tc .vmem S8x128 .f32) (harg4 : arg4.IsWhole) (arg5 : Memref sig .tc .vmem S8x128 .f32) (harg5 : arg5.IsWhole)
    (x1 : Vec F S64x1 .i32) (v7 : FVec F S64x1 .f32)
    (x0 : Vec F S64x32000 .f32) (k : Fin k0_t2_loop.trips) (acc : FVec F S64x1 .f32 × FVec F S64x1 .f32) :
    tripR_k0_t2 (F := F) 𝒱 c bd i arg2 harg2 arg3 harg3 arg4 harg4 arg5 harg5 x1 v7 (harg2.unread x0) k acc
      = (k0_pay6 v7 acc.1 (KL.chunkOf x0 k.val), k0_pay7 x1 k acc.2 (KL.chunkOf x0 k.val)) := by
  unfold tripR_k0_t2 trip_k0_t2
  dsimp only
  rw [load_chunk arg2 harg2 x0 (k0_off2 k) k.val (trips2 ▸ k.isLt) (off2_zero k) (off2_one k) _]

/-! ## The loops read back trip by trip -/

/-- Before trip n of the first loop the carried value is the running row maxima of the first n chunks. -/
theorem st1_eq (𝒱 : Variants) (c : Dev nD) (bd : Option 𝒱.V) (i : grid0.Coords) (arg2 : Memref sig .tc .vmem S64x32000 .f32) (harg2 : arg2.IsWhole) (arg3 : Memref sig .tc .vmem S64x1 .i32) (harg3 : arg3.IsWhole) (arg4 : Memref sig .tc .vmem S8x128 .f32) (harg4 : arg4.IsWhole) (arg5 : Memref sig .tc .vmem S8x128 .f32) (harg5 : arg5.IsWhole)
    (x0 : Vec F S64x32000 .f32) : ∀ n : ℕ, n ≤ 10 →
    st_k0_t1 (F := F) 𝒱 c bd i arg2 harg2 arg3 harg3 arg4 harg4 arg5 harg5 (harg2.unread x0) k0_pay2 n
      = KL.maxLoop (KL.chunkOf x0) n
  | 0, _ => rfl
  | n + 1, hn => by
    have hlt : n < k0_t1_loop.trips := by rw [trips1]; omega
    refine (st_k0_t1_succ 𝒱 c bd i arg2 harg2 arg3 harg3 arg4 harg4 arg5 harg5 (harg2.unread x0) k0_pay2 ⟨n, hlt⟩).trans ?_
    rw [trip1_eq, st1_eq 𝒱 c bd i arg2 harg2 arg3 harg3 arg4 harg4 arg5 harg5 x0 n (by omega)]
    rfl

/-- Before trip n of the second loop the carried pair is the running sums and picked entries of the first n chunks. -/
theorem st2_eq (𝒱 : Variants) (c : Dev nD) (bd : Option 𝒱.V) (i : grid0.Coords) (arg2 : Memref sig .tc .vmem S64x32000 .f32) (harg2 : arg2.IsWhole) (arg3 : Memref sig .tc .vmem S64x1 .i32) (harg3 : arg3.IsWhole) (arg4 : Memref sig .tc .vmem S8x128 .f32) (harg4 : arg4.IsWhole) (arg5 : Memref sig .tc .vmem S8x128 .f32) (harg5 : arg5.IsWhole)
    (x1 : Vec F S64x1 .i32) (v7 : FVec F S64x1 .f32) (x0 : Vec F S64x32000 .f32) : ∀ n : ℕ, n ≤ 10 →
    st_k0_t2 (F := F) 𝒱 c bd i arg2 harg2 arg3 harg3 arg4 harg4 arg5 harg5 x1 v7 (harg2.unread x0) (k0_pay4, k0_pay5) n
      = KL.sumLoop x1 v7 (KL.chunkOf x0) n
  | 0, _ => rfl
  | n + 1, hn => by
    have hlt : n < k0_t2_loop.trips := by rw [trips2]; omega
    refine (st_k0_t2_succ 𝒱 c bd i arg2 harg2 arg3 harg3 arg4 harg4 arg5 harg5 x1 v7 (harg2.unread x0) (k0_pay4, k0_pay5) ⟨n, hlt⟩).trans ?_
    rw [trip2_eq, st2_eq 𝒱 c bd i arg2 harg2 arg3 harg3 arg4 harg4 arg5 harg5 x1 v7 x0 n (by omega)]
    rw [KL.sumLoop.eq_2, dif_pos hlt]

/-- The zero offsets of a whole load or store, as the body spells them. -/
theorem hz : (![0, 0] : Fin 2 → ℕ) = fun _ => 0 := by
  funext a; match a with | ⟨0, _⟩ => rfl | ⟨1, _⟩ => rfl

/-! ## The four pieces -/

/-- A core's first point: the accumulator is reset to zero, then updated. -/
theorem sout0_A_0_eq (c : Dev nD) (i : grid0.Coords) (arg2 : Memref sig .tc .vmem S64x32000 .f32) (harg2 : arg2.IsWhole) (arg3 : Memref sig .tc .vmem S64x1 .i32) (harg3 : arg3.IsWhole) (arg4 : Memref sig .tc .vmem S8x128 .f32) (harg4 : arg4.IsWhole) (arg5 : Memref sig .tc .vmem S8x128 .f32) (harg5 : arg5.IsWhole) (hc0 : cond0_0 i) (hc1 : ¬cond0_1 i)
    (x0 : Vec F S64x32000 .f32) (x1 : Vec F S64x1 .i32) :
    sout0_A_0 (F := F) c i arg2 harg2 arg3 harg3 arg4 harg4 arg5 harg5 hc0 hc1 x0 x1
      = KL.pointUpdate x1 (KL.chunkOf x0) (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  -- the later store covers the accumulator, and what it read back is what the reset stored
  rw [View.canon_cons_unit_zero (S := S8x128) hz]
  simp only [View.readAt_eq_ld, harg3.read_unread, View.ld_unit_zero (S := S64x1) hz,
    View.readCov_unit_zero (S := S8x128) _ hz]
  rw [trips_lit]
  rw [st1_eq Variants.none c none i arg2 harg2 arg3 harg3 arg4 harg4 arg5 harg5 x0 10 (Nat.le_refl 10),
    st2_eq Variants.none c none i arg2 harg2 arg3 harg3 arg4 harg4 arg5 harg5 x1 _ x0 10 (Nat.le_refl 10)]
  rfl

/-- A middle point: the accumulator found at xs0 is updated. -/
theorem sout0_B_0_eq (c : Dev nD) (i : grid0.Coords) (arg2 : Memref sig .tc .vmem S64x32000 .f32) (harg2 : arg2.IsWhole) (arg3 : Memref sig .tc .vmem S64x1 .i32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : ¬cond0_1 i)
    (x0 : Vec F S64x32000 .f32) (x1 : Vec F S64x1 .i32) (xs0 : Vec F S8x128 .f32) :
    sout0_B_0 (F := F) c i arg2 harg2 arg3 harg3 arg4 harg4 arg5 harg5 hc0 hc1 x0 x1 xs0
      = KL.pointUpdate x1 (KL.chunkOf x0) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg3.read_unread, harg5.read_unread, View.ld_unit_zero (S := S64x1) hz,
    View.ld_unit_zero (S := S8x128) hz]
  rw [trips_lit]
  rw [st1_eq Variants.none c none i arg2 harg2 arg3 harg3 arg4 harg4 arg5 harg5 x0 10 (Nat.le_refl 10),
    st2_eq Variants.none c none i arg2 harg2 arg3 harg3 arg4 harg4 arg5 harg5 x1 _ x0 10 (Nat.le_refl 10)]
  rfl

/-- A core's last point: the accumulator found at xs0 is updated, -/
theorem sout0_C_0_eq (c : Dev nD) (i : grid0.Coords) (arg2 : Memref sig .tc .vmem S64x32000 .f32) (harg2 : arg2.IsWhole) (arg3 : Memref sig .tc .vmem S64x1 .i32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S64x32000 .f32) (x1 : Vec F S64x1 .i32) (xs0 : Vec F S8x128 .f32) :
    sout0_C_0 (F := F) c i arg2 harg2 arg3 harg3 arg4 harg4 arg5 harg5 hc0 hc1 x0 x1 xs0
      = KL.pointUpdate x1 (KL.chunkOf x0) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg3.read_unread, harg5.read_unread, View.ld_unit_zero (S := S64x1) hz,
    View.ld_unit_zero (S := S8x128) hz]
  rw [trips_lit]
  rw [st1_eq Variants.none c none i arg2 harg2 arg3 harg3 arg4 harg4 arg5 harg5 x0 10 (Nat.le_refl 10),
    st2_eq Variants.none c none i arg2 harg2 arg3 harg3 arg4 harg4 arg5 harg5 x1 _ x0 10 (Nat.le_refl 10)]
  rfl

/-- and the output block is the updated accumulator. -/
theorem out0_C_2_eq (c : Dev nD) (i : grid0.Coords) (arg2 : Memref sig .tc .vmem S64x32000 .f32) (harg2 : arg2.IsWhole) (arg3 : Memref sig .tc .vmem S64x1 .i32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S64x32000 .f32) (x1 : Vec F S64x1 .i32) (xs0 : Vec F S8x128 .f32) :
    out0_C_2 (F := F) c i arg2 harg2 arg3 harg3 arg4 harg4 arg5 harg5 hc0 hc1 x0 x1 xs0
      = KL.pointUpdate x1 (KL.chunkOf x0) xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  -- the output block is stored from the accumulator read back after its update
  rw [View.canon_unit_zero hz]
  simp only [View.readCov_unit_zero (S := S8x128) _ hz, View.readAt_eq_ld, harg3.read_unread, harg5.read_unread,
    View.ld_unit_zero (S := S64x1) hz, View.ld_unit_zero (S := S8x128) hz]
  rw [trips_lit]
  rw [st1_eq Variants.none c none i arg2 harg2 arg3 harg3 arg4 harg4 arg5 harg5 x0 10 (Nat.le_refl 10),
    st2_eq Variants.none c none i arg2 harg2 arg3 harg3 arg4 harg4 arg5 harg5 x1 _ x0 10 (Nat.le_refl 10)]
  rfl

end Cert.KernelIdeal.KP

end
-- ==== Proof.KSumExp.lean ====
/-
  The second loop's first carried value: with the rows' maxima v7 given, after the ten chunks it holds, for every row
  of the block, the sum over all 32000 columns of exp (x r c - v7 r): ten partial sums over 3200 columns each, from zero,
  regrouped as one sum (addition on the extended reals is commutative and associative).
-/
import proofs.«426357_j19499151524481_3_alg».proof.Proof.KLoops
import proofs.«426357_j19499151524481_3_alg».proof.Proof.Spec
import Idealize.ShloMosaic.PureOps.Ideal.Laws
import Idealize.ShloMosaic.Lib.Pipeline.Value

noncomputable section

open scoped BigOperators

namespace Cert.KernelIdeal.KSE

open Idealize.ShloMosaic Idealize.ShloMosaic.ValueIdx Cert.KernelIdeal Cert.KernelIdeal.Gen

/-- The index a sum over the columns of a 64 × 3200 vector reads at row r: column l of row r. -/
theorem lift_eq (r : Fin 64) (l : Fin 3200) :
    reduces_S64x3200_S64.lift (ix1 r) l = ix2 r l := by
  funext a
  match a with
  | ⟨0, _⟩ => rfl
  | ⟨1, _⟩ => rfl

/-- A column of 64 entries spread over 3200 columns, read at (r, l): entry r of the column. -/
theorem bcast_apply (v7 : FVec Ideal S64x1 .f32) (r : Fin 64) (l : Fin 3200) :
    broadcastTo S64x3200 v7 broadcasts_S64x1_S64x3200 (ix2 r l) = v7 (ix2 r (0 : Fin 1)) := by
  refine broadcastTo_apply v7 broadcasts_S64x1_S64x3200 (ix2 r l) (ix2 r (0 : Fin 1)) ?_
  intro a
  match a with
  | ⟨0, _⟩ => rfl
  | ⟨1, _⟩ => rfl

/-- 64 entries recast as a column, read at (r, 0): entry r. -/
theorem cast_apply (w : FVec Ideal S64 .f32) (r : Fin 64) :
    shapeCast S64x1 w shapeCasts_S64_S64x1 (ix2 r (0 : Fin 1)) = w (ix1 r) := by
  refine shapeCast_apply w shapeCasts_S64_S64x1 (ix2 r (0 : Fin 1)) (ix1 r) ?_
  show ((⟨1, ![64]⟩ : Shape).rowMajor (ix1 r)).val = ((⟨2, ![64, 1]⟩ : Shape).rowMajor (ix2 r (0 : Fin 1))).val
  rw [Shape.rowMajor_val_one, Shape.rowMajor_val_two]
  show r.val = r.val * 1 + 0
  omega

/-- One trip: row r's running sum grows by the sum over the chunk's 3200 columns of exp (entry - v7 r). -/
theorem pay6_apply (v7 acc : FVec Ideal S64x1 .f32) (v : Vec Ideal S64x3200 .f32) (r : Fin 64) :
    k0_pay6 (F := Ideal) v7 acc v (ix2 r (0 : Fin 1))
      = acc (ix2 r (0 : Fin 1)) + ∑ l : Fin 3200, Ideal.exp (v (ix2 r l) - v7 (ix2 r (0 : Fin 1))) := by
  unfold k0_pay6
  dsimp only
  show acc (ix2 r (0 : Fin 1)) + shapeCast S64x1 _ shapeCasts_S64_S64x1 (ix2 r (0 : Fin 1)) = _
  refine congrArg (acc (ix2 r (0 : Fin 1)) + ·) ?_
  refine (cast_apply _ r).trans ?_
  refine (Ideal.multiReduction_add_single _ _ reduces_S64x3200_S64 _ _ (ix1 r)).trans ?_
  show ∑ l : Fin 3200, _ = _
  refine Finset.sum_congr rfl (fun l _ => ?_)
  rw [lift_eq r l]
  show Ideal.exp (v (ix2 r l) - broadcastTo S64x3200 v7 broadcasts_S64x1_S64x3200 (ix2 r l)) = _
  rw [bcast_apply v7 r l]

/-- The running sums start at zero. -/
theorem pay4_apply (r : Fin 64) : k0_pay4 (F := Ideal) (ix2 r (0 : Fin 1)) = (0 : EReal) := by
  unfold k0_pay4
  show Ideal.ofBits .f32 0x00000000#32 = 0
  exact Ideal.ofBits_zero_f32

/-- The loop has ten trips. -/
theorem trips_eq : k0_t2_loop.trips = 10 := by decide

/-- The running sums after trip k, for k one of the ten trips: one more application of the trip. -/
theorem sumLoop_succ_fst (x1 : Vec Ideal S64x1 .i32) (v7 : FVec Ideal S64x1 .f32) (ch : Nat → Vec Ideal S64x3200 .f32) (k : Nat)
    (hk : k < 10) :
    (KL.sumLoop x1 v7 ch (k + 1)).1 = k0_pay6 (F := Ideal) v7 (KL.sumLoop x1 v7 ch k).1 (ch k) := by
  have h : k < k0_t2_loop.trips := by rw [trips_eq]; exact hk
  rw [KL.sumLoop, dif_pos h]

/-- Entry (r, l) of chunk k, for k one of the ten chunks, is entry (r, 3200 k + l) of the block. -/
theorem chunkOf_apply (x0 : Vec Ideal S64x32000 .f32) (k : Nat) (r : Fin 64) (l : Fin 3200) :
    KL.chunkOf x0 k (ix2 r l) = x0 (ix2 r (⟨(3200 * k + l.val) % 32000, Nat.mod_lt _ (by decide)⟩ : Fin 32000)) := rfl

/-- After k of the ten trips row r's running sum is the sum, over the first k chunks, of the chunks' sums. -/
theorem partial_sum (x0 : Vec Ideal S64x32000 .f32) (x1 : Vec Ideal S64x1 .i32) (v7 : FVec Ideal S64x1 .f32) (r : Fin 64)
    (k : Nat) (hk : k ≤ 10) :
    (KL.sumLoop x1 v7 (KL.chunkOf x0) k).1 (ix2 r (0 : Fin 1))
      = ∑ j ∈ Finset.range k, ∑ l : Fin 3200,
          Ideal.exp (x0 (ix2 r (⟨(3200 * j + l.val) % 32000, Nat.mod_lt _ (by decide)⟩ : Fin 32000)) - v7 (ix2 r (0 : Fin 1))) := by
  induction k with
  | zero =>
    rw [Finset.range_zero, Finset.sum_empty]
    exact pay4_apply r
  | succ k ih =>
    rw [sumLoop_succ_fst x1 v7 (KL.chunkOf x0) k (by omega), pay6_apply, ih (by omega), Finset.sum_range_succ]
    rfl

/-- Ten sums over 3200 columns each are one sum over the 32000 columns: column c is column c % 3200 of chunk c / 3200. -/
theorem regroup (g : Fin 32000 → EReal) :
    ∑ k ∈ Finset.range 10, ∑ l : Fin 3200, g ⟨(3200 * k + l.val) % 32000, Nat.mod_lt _ (by decide)⟩ = ∑ c : Fin 32000, g c := by
  rw [← Fin.sum_univ_eq_sum_range (fun k => ∑ l : Fin 3200, g ⟨(3200 * k + l.val) % 32000, Nat.mod_lt _ (by decide)⟩) 10]
  rw [← Fintype.sum_prod_type']
  refine Fintype.sum_equiv (finProdFinEquiv (m := 10) (n := 3200)) _ g ?_
  intro p
  refine congrArg g (Fin.ext ?_)
  show (3200 * p.1.val + p.2.val) % 32000 = p.2.val + 3200 * p.1.val
  have h1 := p.1.isLt
  have h2 := p.2.isLt
  omega

/-- After the ten chunks the running sum of row r is the sum over the whole row of the shifted exponentials. -/
theorem exp_sum (x0 : Vec Ideal S64x32000 .f32) (x1 : Vec Ideal S64x1 .i32) (v7 : FVec Ideal S64x1 .f32) (r : Fin 64) :
    (KL.sumLoop x1 v7 (KL.chunkOf x0) 10).1 (ix2 r (0 : Fin 1))
      = ∑ c : Fin 32000, Ideal.exp (x0 (ix2 r c) - v7 (ix2 r (0 : Fin 1))) := by
  rw [partial_sum x0 x1 v7 r 10 (le_refl 10)]
  exact regroup (fun c => Ideal.exp (x0 (ix2 r c) - v7 (ix2 r (0 : Fin 1))))

end Cert.KernelIdeal.KSE

end
-- ==== Proof.KPick.lean ====
/-
  The second loop's second carried value: every chunk adds, for every row, the sum over the chunk's columns of
  "the entry if the column's number equals the row's target, else zero". When the target is a column, exactly one
  column of exactly one chunk matches, every other summand is zero, and after the ten chunks the value is the entry
  at the row's target column.
-/
import proofs.«426357_j19499151524481_3_alg».proof.Proof.KLoops
import proofs.«426357_j19499151524481_3_alg».proof.Proof.Spec
import Idealize.ShloMosaic.PureOps.Ideal.Laws
import Idealize.ShloMosaic.Lib.Pipeline.Value
import Idealize.ShloMosaic.Lib.StableHlo.Predicate

noncomputable section

open scoped BigOperators

namespace Cert.KernelIdeal.KPk

open Idealize.ShloMosaic Idealize.ShloMosaic.ValueIdx Cert.KernelIdeal Cert.KernelIdeal.Gen

/-- The loop has ten trips. -/
theorem trips_eq : k0_t2_loop.trips = 10 := by decide

/-- The word arithmetic of one lane: for k < 10 and l < 3200 nothing wraps, so lane l of chunk k carries the word of
    3200 k + l, which equals a given word exactly when 3200 k + l is that word's number. -/
theorem lane_eq_iff (k : Nat) (hk : k < 10) (l : Nat) (hl : l < 3200) (w : BitVec 32) :
    IntOp.cmpi .eq (IntOp.addi (Scalar.muli (Scf.iv 0#32 1#32 k) 3200#32) (BitVec.ofNat 32 l)) w = 1#1
      ↔ 3200 * k + l = w.toNat := by
  rw [StableHlo.Predicate.cmpi_eq_iff]
  have e : IntOp.addi (Scalar.muli (Scf.iv 0#32 1#32 k) 3200#32) (BitVec.ofNat 32 l) = BitVec.ofNat 32 (3200 * k + l) := by
    apply BitVec.eq_of_toNat_eq
    simp only [IntOp.addi, Scalar.muli, IntOp.muli, Scf.iv, BitVec.toNat_add, BitVec.toNat_mul, BitVec.toNat_ofNat]
    omega
  rw [e]
  constructor
  · intro h
    rw [← h, BitVec.toNat_ofNat]
    omega
  · intro h
    apply BitVec.eq_of_toNat_eq
    rw [BitVec.toNat_ofNat, h]
    omega

/-- One chunk adds to row r's picked value the sum over the chunk's lanes of "the lane's entry if the lane's column
    number is the row's target, else zero". -/
theorem pick_trip (x1 : Vec Ideal S64x1 .i32) (k : Nat) (hk : k < k0_t2_loop.trips) (acc : FVec Ideal S64x1 .f32)
    (v : Vec Ideal S64x3200 .f32) (r : Fin 64) :
    k0_pay7 (F := Ideal) x1 ⟨k, hk⟩ acc v (ix2 r (0 : Fin 1))
      = acc (ix2 r (0 : Fin 1))
        + ∑ l : Fin 3200, (if 3200 * k + l.val = (x1 (ix2 r (0 : Fin 1)) : BitVec 32).toNat then v (ix2 r l) else 0) := by
  have hk10 : k < 10 := trips_eq ▸ hk
  unfold k0_pay7
  dsimp only
  rw [addf_apply]
  congr 1
  refine (shapeCast_apply _ _ _ (ix1 r) ?_).trans ?_
  · rw [Shape.rowMajor_val_one, Shape.rowMajor_val_two]
    show r.val = r.val * 1 + 0
    omega
  refine (Ideal.multiReduction_add_single _ _ _ _ _ _).trans ?_
  refine Finset.sum_congr rfl fun l _ => ?_
  have hl : l.val < 3200 := l.isLt
  have hlift : reduces_S64x3200_S64.lift (ix1 r) l = ix2 r (⟨l.val, hl⟩ : Fin 3200) := by
    funext c
    apply Fin.ext
    match c with
    | ⟨0, _⟩ => rfl
    | ⟨1, _⟩ => rfl
  have htgt : broadcastTo S64x3200 (shapeCast S64x1 x1 shapeCasts_S64x1_S64x1) broadcasts_S64x1_S64x3200
      (ix2 r (⟨l.val, hl⟩ : Fin 3200)) = x1 (ix2 r (0 : Fin 1)) := by
    rw [shapeCast_self]
    refine broadcastTo_apply _ _ _ _ fun a => ?_
    match a with
    | ⟨0, _⟩ => rfl
    | ⟨1, _⟩ => rfl
  rw [hlift, select_apply]
  show Scalar.select (IntOp.cmpi .eq (IntOp.addi (Scalar.muli (Scf.iv 0#32 1#32 k) 3200#32)
      (iota .tc S64x3200 32 [1] iota_S64x3200_d1_w32 (ix2 r (⟨l.val, hl⟩ : Fin 3200))))
      (broadcastTo S64x3200 (shapeCast S64x1 x1 shapeCasts_S64x1_S64x1) broadcasts_S64x1_S64x3200 (ix2 r (⟨l.val, hl⟩ : Fin 3200))))
      (v (ix2 r (⟨l.val, hl⟩ : Fin 3200))) (Ideal.ofBits .f32 0x00000000#32) = _
  rw [iota_single_apply, htgt, Ideal.ofBits_zero_f32]
  show Scalar.select (IntOp.cmpi .eq (IntOp.addi (Scalar.muli (Scf.iv 0#32 1#32 k) 3200#32) (BitVec.ofNat 32 l.val))
      (x1 (ix2 r (0 : Fin 1)))) (v (ix2 r l)) 0 = _
  by_cases h : 3200 * k + l.val = (x1 (ix2 r (0 : Fin 1)) : BitVec 32).toNat
  · rw [if_pos h, (lane_eq_iff k hk10 l.val hl _).mpr h, select_one]
  · rw [if_neg h, eq_zero_of_ne_one (fun e => h ((lane_eq_iff k hk10 l.val hl _).mp e)), select_zero]

/-- The lanes of chunk k at a column number T: the sum over the lanes of "the lane's entry if the lane's column number
    is T, else zero" is the entry at column T when T is one of the chunk's columns (exactly one lane matches), and zero
    otherwise (no lane matches). -/
theorem lane_sum (x0 : Vec Ideal S64x32000 .f32) (r : Fin 64) (k T : Nat) (c : Fin 32000) (hc : c.val = T) :
    (∑ l : Fin 3200, (if 3200 * k + l.val = T then KL.chunkOf x0 k (ix2 r l) else 0))
      = if 3200 * k ≤ T ∧ T < 3200 * (k + 1) then x0 (ix2 r c) else 0 := by
  by_cases h : 3200 * k ≤ T ∧ T < 3200 * (k + 1)
  · rw [if_pos h]
    have hl : T - 3200 * k < 3200 := by omega
    rw [Finset.sum_eq_single (⟨T - 3200 * k, hl⟩ : Fin 3200)]
    · rw [if_pos (by show 3200 * k + (T - 3200 * k) = T; omega)]
      show x0 (ix2 (⟨r.val, _⟩ : Fin 64) (⟨(3200 * k + (T - 3200 * k)) % 32000, _⟩ : Fin 32000)) = x0 (ix2 r c)
      congr 2
      apply Fin.ext
      show (3200 * k + (T - 3200 * k)) % 32000 = c.val
      have := c.isLt
      omega
    · intro l _ hne
      refine if_neg fun e => hne (Fin.ext ?_)
      show l.val = T - 3200 * k
      omega
    · intro hnot
      exact absurd (Finset.mem_univ _) hnot
  · rw [if_neg h]
    refine Finset.sum_eq_zero fun l _ => if_neg fun e => h ?_
    have := l.isLt
    omega

/-- Before chunk n the picked value of row r is the entry at the row's target column if that column is among the first
    3200 n, and zero otherwise: zero plus zero before the target's chunk, zero plus the entry at it, the entry plus
    zero after it. -/
theorem pick_upto (x0 : Vec Ideal S64x32000 .f32) (x1 : Vec Ideal S64x1 .i32) (v7 : FVec Ideal S64x1 .f32) (r : Fin 64)
    (hr : (x1 (ix2 r (0 : Fin 1)) : BitVec 32).toNat < 32000) : ∀ n : Nat, n ≤ 10 →
    (KL.sumLoop x1 v7 (KL.chunkOf x0) n).2 (ix2 r (0 : Fin 1))
      = if (x1 (ix2 r (0 : Fin 1)) : BitVec 32).toNat < 3200 * n
          then x0 (ix2 r (Cert.Spec.colOf (x1 (ix2 r (0 : Fin 1))))) else 0
  | 0, _ => by
    rw [if_neg (by omega)]
    show broadcast S64x1 (Ideal.ofBits .f32 0x00000000#32) (ix2 r (0 : Fin 1)) = 0
    rw [broadcast_apply, Ideal.ofBits_zero_f32]
  | n + 1, hn => by
    have hlt : n < k0_t2_loop.trips := by rw [trips_eq]; omega
    have ih := pick_upto x0 x1 v7 r hr n (by omega)
    unfold KL.sumLoop
    rw [dif_pos hlt]
    show k0_pay7 (F := Ideal) x1 ⟨n, hlt⟩ (KL.sumLoop x1 v7 (KL.chunkOf x0) n).2 (KL.chunkOf x0 n) (ix2 r (0 : Fin 1)) = _
    rw [pick_trip, ih, lane_sum x0 r n _ (Cert.Spec.colOf (x1 (ix2 r (0 : Fin 1)))) (Cert.Spec.colOf_val_of_lt _ hr)]
    by_cases h1 : (x1 (ix2 r (0 : Fin 1)) : BitVec 32).toNat < 3200 * n
    · rw [if_pos h1, if_neg (by omega), if_pos (by omega), add_zero]
    · by_cases h2 : (x1 (ix2 r (0 : Fin 1)) : BitVec 32).toNat < 3200 * (n + 1)
      · rw [if_neg h1, if_pos ⟨by omega, h2⟩, if_pos h2, zero_add]
      · rw [if_neg h1, if_neg (by omega), if_neg h2, add_zero]

/-- After the ten chunks the picked value of row r is the entry at the row's target column. -/
theorem pick_sum (x0 : Vec Ideal S64x32000 .f32) (x1 : Vec Ideal S64x1 .i32) (v7 : FVec Ideal S64x1 .f32) (r : Fin 64)
    (hr : (x1 (ix2 r (0 : Fin 1)) : BitVec 32).toNat < 32000) :
    (KL.sumLoop x1 v7 (KL.chunkOf x0) 10).2 (ix2 r (0 : Fin 1))
      = x0 (ix2 r (Cert.Spec.colOf (x1 (ix2 r (0 : Fin 1))))) := by
  rw [pick_upto x0 x1 v7 r hr 10 (Nat.le_refl _), if_pos (by omega)]

end Cert.KernelIdeal.KPk

end
-- ==== Proof.KRow.lean ====
/-
  The point's update read at the accumulator's entry (0, 0), over the extended reals: the ten chunk maxima fold to the
  row's supremum, the ten chunk sums to the row's sum of shifted exponentials (a sum over 32000 columns regrouped as
  10 × 3200), and the compare-and-select picks exactly the entry at the row's target column when the target is a column
  (all other summands are zero). So entry (0, 0) grows by the sum of the block's 64 row terms; and the 8192 rows are
  the 128 blocks of 64.
-/
import proofs.«426357_j19499151524481_3_alg».proof.Proof.KLoops
import proofs.«426357_j19499151524481_3_alg».proof.Proof.Spec
import proofs.«426357_j19499151524481_3_alg».proof.Proof.KSumExp
import proofs.«426357_j19499151524481_3_alg».proof.Proof.KPick
import Idealize.ShloMosaic.PureOps.Ideal.Laws
import Idealize.ShloMosaic.Lib.Pipeline.Value

noncomputable section

open scoped BigOperators

namespace Cert.KernelIdeal.KR

open Idealize.ShloMosaic Idealize.ShloMosaic.ValueIdx Cert.KernelIdeal Cert.KernelIdeal.Gen

/-! ## m · n indices as m blocks of n: a sum and a supremum regrouped -/

/-- Entry l of block k lies below m · n. -/
theorem block_lt {m n k l : Nat} (hk : k < m) (hl : l < n) : n * k + l < m * n :=
  calc n * k + l < n * k + n := Nat.add_lt_add_left hl _
    _ = n * (k + 1) := (Nat.mul_succ n k).symm
    _ ≤ n * m := Nat.mul_le_mul_left _ hk
    _ = m * n := Nat.mul_comm _ _

/-- A sum over N = m · n indices is the sum over the m blocks of the sums over each block's n entries
    (the pair (k, l) is the index n k + l; sums commute and associate). -/
theorem sum_blocks {M : Type*} [AddCommMonoid M] (N m n : Nat) (hN : N = m * n) (hpos : 0 < N) (g : Fin N → M) :
    ∑ k ∈ Finset.range m, ∑ l : Fin n, g ⟨(n * k + l.val) % N, Nat.mod_lt _ hpos⟩ = ∑ c : Fin N, g c := by
  subst hN
  rw [Finset.sum_range fun k => ∑ l : Fin n, g ⟨(n * k + l.val) % (m * n), Nat.mod_lt _ hpos⟩]
  rw [← Fintype.sum_prod_type' (fun (k : Fin m) (l : Fin n) => g ⟨(n * k.val + l.val) % (m * n), Nat.mod_lt _ hpos⟩)]
  refine Fintype.sum_equiv finProdFinEquiv _ _ fun p => congrArg g (Fin.ext ?_)
  show (n * p.1.val + p.2.val) % (m * n) = p.2.val + n * p.1.val
  rw [Nat.mod_eq_of_lt (block_lt p.1.isLt p.2.isLt), Nat.add_comm]

/-- A supremum over N = m · n indices is the supremum over the m blocks of the suprema over each block's n entries. -/
theorem sup_blocks (N m n : Nat) (hN : N = m * n) (hpos : 0 < N) (g : Fin N → EReal) :
    ((Finset.range m).sup fun k => (Finset.univ : Finset (Fin n)).sup fun l => g ⟨(n * k + l.val) % N, Nat.mod_lt _ hpos⟩)
      = (Finset.univ : Finset (Fin N)).sup g := by
  subst hN
  have hn : 0 < n := Nat.pos_of_ne_zero (by rintro rfl; simp at hpos)
  apply le_antisymm
  · exact Finset.sup_le fun k _ => Finset.sup_le fun l _ => Finset.le_sup (f := g) (Finset.mem_univ _)
  · refine Finset.sup_le fun c _ => ?_
    have hk : c.val / n < m := (Nat.div_lt_iff_lt_mul hn).2 c.isLt
    have hl : c.val % n < n := Nat.mod_lt _ hn
    have hc : g c = g ⟨(n * (c.val / n) + c.val % n) % (m * n), Nat.mod_lt _ hpos⟩ :=
      congrArg g (Fin.ext (by
        show c.val = (n * (c.val / n) + c.val % n) % (m * n)
        rw [Nat.div_add_mod, Nat.mod_eq_of_lt c.isLt]))
    rw [hc]
    exact le_trans
      (Finset.le_sup (f := fun l : Fin n => g ⟨(n * (c.val / n) + l.val) % (m * n), Nat.mod_lt _ hpos⟩)
        (Finset.mem_univ (⟨c.val % n, hl⟩ : Fin n)))
      (Finset.le_sup (f := fun k => (Finset.univ : Finset (Fin n)).sup fun l => g ⟨(n * k + l.val) % (m * n), Nat.mod_lt _ hpos⟩)
        (Finset.mem_range.2 hk))

/-! ## The words of -∞ and 0 -/

/-- The word 0xFF800000 is -∞. -/
theorem ofBits_negInf : Ideal.ofBits .f32 0xFF800000#32 = (⊥ : EReal) := by
  simp [Ideal.ofBits, Ideal.ieee]

/-! ## The row maxima -/

/-- The start of the maxima is -∞ everywhere. -/
theorem pay2_apply (j : S64x1.Idx) : k0_pay2 (F := Ideal) j = (⊥ : EReal) := ofBits_negInf

/-- Row r of a chunk with column l inserted is the entry (r, l). -/
theorem lift_row (r : Fin 64) (l : Fin 3200) : reduces_S64x3200_S64.lift (ix1 r) l = ix2 r l := by
  funext a
  match a with
  | ⟨0, _⟩ => exact Fin.ext rfl
  | ⟨1, _⟩ => exact Fin.ext rfl

/-- The position of (r, 0) among 64 × 1 entries is r, the position of r among 64. -/
theorem pos_col (r : Fin 64) : (S64.rowMajor (ix1 r)).val = (S64x1.rowMajor (ix2 r (0 : Fin 1))).val := by
  rw [Shape.rowMajor_val_one, Shape.rowMajor_val_two]
  show r.val = r.val * 1 + 0
  omega

/-- The maximum over a chunk's columns, read at row r: the supremum of the row's 3200 entries (a fold of max from -∞). -/
theorem chunk_rowmax (v : FVec Ideal S64x3200 .f32) (hφ : FKind.Formats .f32)
    (hacc : (0xFF800000#32 : BitVec 32) = FKind.maximumf.neutral .f32 hφ) (r : Fin 64) :
    multiReduction (F := Ideal) .maximumf [1] S64 v 0xFF800000#32 reduces_S64x3200_S64 hφ hacc (ix1 r)
      = (Finset.univ : Finset (Fin 3200)).sup fun l => v (ix2 r l) := by
  refine (Ideal.multiReduction_maximumf_single v 0xFF800000#32 reduces_S64x3200_S64 hφ hacc (ix1 r)).trans ?_
  rw [show (v ∘ reduces_S64x3200_S64.lift (ix1 r)) = fun l : Fin 3200 => v (ix2 r l) from
    funext fun l => congrArg v (lift_row r l)]
  show (Finset.univ : Finset (Fin 3200)).fold max (Ideal.ofBits .f32 0xFF800000#32) (fun l : Fin 3200 => v (ix2 r l)) = _
  rw [ofBits_negInf]
  rfl

/-- One step of the maxima: the running maximum of row r against the largest entry of the chunk's row r. -/
theorem pay3_apply (acc : FVec Ideal S64x1 .f32) (v : Vec Ideal S64x3200 .f32) (r : Fin 64) :
    k0_pay3 (F := Ideal) acc v (ix2 r (0 : Fin 1))
      = max (acc (ix2 r (0 : Fin 1))) ((Finset.univ : Finset (Fin 3200)).sup fun l => v (ix2 r l)) := by
  show max (acc (ix2 r (0 : Fin 1)))
      (shapeCast S64x1 (multiReduction (F := Ideal) .maximumf [1] S64 v 0xFF800000#32 reduces_S64x3200_S64 (.inl rfl) rfl)
        shapeCasts_S64_S64x1 (ix2 r (0 : Fin 1))) = _
  refine congrArg (max (acc (ix2 r (0 : Fin 1)))) ?_
  refine (shapeCast_apply _ shapeCasts_S64_S64x1 (ix2 r (0 : Fin 1)) (ix1 r) (pos_col r)).trans ?_
  exact chunk_rowmax v _ _ r

/-- The running maxima before chunk k: in row r, the supremum over the first k chunks of each chunk's row supremum. -/
theorem maxLoop_apply (ch : Nat → Vec Ideal S64x3200 .f32) (r : Fin 64) (k : Nat) :
    KL.maxLoop (F := Ideal) ch k (ix2 r (0 : Fin 1))
      = (Finset.range k).sup fun k' => (Finset.univ : Finset (Fin 3200)).sup fun l => ch k' (ix2 r l) := by
  induction k with
  | zero => exact pay2_apply _
  | succ k ih =>
    show k0_pay3 (F := Ideal) (KL.maxLoop ch k) (ch k) (ix2 r (0 : Fin 1)) = _
    rw [pay3_apply, ih, Finset.range_add_one, Finset.sup_insert]
    exact max_comm _ _

/-- After the ten chunks the maximum of row r is the row's supremum: 32000 columns are 10 chunks of 3200. -/
theorem maxLoop_rowMax (x0 : Vec Ideal S64x32000 .f32) (r : Fin 64) :
    KL.maxLoop (F := Ideal) (KL.chunkOf x0) 10 (ix2 r (0 : Fin 1)) = Cert.Spec.rowMax x0 r := by
  rw [maxLoop_apply]
  exact sup_blocks 32000 10 3200 (by norm_num) (by norm_num) fun c => x0 (ix2 r c)

/-! ## The closing arithmetic at entry (0, 0) -/

/-- A select reads its first operand where the condition is 1. -/
theorem select_at_one {s : Shape} (c : IVec s 1) (x y : s.Idx → EReal) (i : s.Idx) (h : c i = 1#1) :
    select c x y i = x i := by
  rw [select_apply, h, select_one]

/-- The mask "row coordinate 0 and column coordinate 0" is 1 at (0, 0). -/
theorem mask_00 :
    andi (cmpi .eq (iota .tc S8x128 32 [0] iota_S8x128_d0_w32) (broadcast S8x128 0#32))
        (cmpi .eq (iota .tc S8x128 32 [1] iota_S8x128_d1_w32) (broadcast S8x128 0#32)) (ix2 (0 : Fin 8) (0 : Fin 128)) = 1#1 := by
  show IntOp.andi (IntOp.cmpi .eq (iota .tc S8x128 32 [0] iota_S8x128_d0_w32 (ix2 (0 : Fin 8) (0 : Fin 128))) 0#32)
      (IntOp.cmpi .eq (iota .tc S8x128 32 [1] iota_S8x128_d1_w32 (ix2 (0 : Fin 8) (0 : Fin 128))) 0#32) = 1#1
  rw [iota_single_apply, iota_single_apply]
  rfl

/-- The one index of the 64 × 1 column with row q inserted is (q, 0). -/
theorem lift_col (q : Fin 64) : reduces_S64x1_S1.lift (ix1 (0 : Fin 1)) q = ix2 q (0 : Fin 1) := by
  funext a
  match a with
  | ⟨0, _⟩ => exact Fin.ext rfl
  | ⟨1, _⟩ => exact Fin.ext rfl

/-- The sum over the rows of a 64 × 1 column, read at its one index: the sum of the 64 entries. -/
theorem col_sum (w : FVec Ideal S64x1 .f32) (hφ : FKind.Formats .f32)
    (hacc : (0x00000000#32 : BitVec 32) = FKind.add.neutral .f32 hφ) :
    multiReduction (F := Ideal) .add [0] S1 w 0x00000000#32 reduces_S64x1_S1 hφ hacc (ix1 (0 : Fin 1))
      = ∑ q : Fin 64, w (ix2 q (0 : Fin 1)) := by
  refine (Ideal.multiReduction_add_single w 0x00000000#32 reduces_S64x1_S1 hφ hacc (ix1 (0 : Fin 1))).trans ?_
  exact Finset.sum_congr rfl fun q _ => congrArg w (lift_col q)

/-- The position of (0, 0) among 1 × 1 entries is that of 0 among 1. -/
theorem pos_00 : (S1.rowMajor (ix1 (0 : Fin 1))).val = (S1x1.rowMajor (ix2 (0 : Fin 1) (0 : Fin 1))).val := by
  rw [Shape.rowMajor_val_one, Shape.rowMajor_val_two]
  rfl

/-- Entry (0, 0) of what a point stores: the old entry plus the sum over the 64 rows of
    (picked entry - maximum) - log (sum of exponentials). -/
theorem pay8_00 (m a b : FVec Ideal S64x1 .f32) (xs : Vec Ideal S8x128 .f32) :
    k0_pay8 (F := Ideal) m a b xs (ix2 (0 : Fin 8) (0 : Fin 128))
      = xs (ix2 (0 : Fin 8) (0 : Fin 128))
        + ∑ q : Fin 64, ((b (ix2 q (0 : Fin 1)) - m (ix2 q (0 : Fin 1))) - Ideal.log (a (ix2 q (0 : Fin 1)))) := by
  unfold k0_pay8
  dsimp only
  rw [shapeCast_self _ shapeCasts_S8x128_S8x128]
  refine (addf_apply _ _ _).trans ?_
  refine congrArg (xs (ix2 (0 : Fin 8) (0 : Fin 128)) + ·) ?_
  refine (select_at_one _ _ _ _ mask_00).trans ?_
  refine (broadcastTo_apply _ broadcasts_S1x1_S8x128 (ix2 (0 : Fin 8) (0 : Fin 128)) (ix2 (0 : Fin 1) (0 : Fin 1))
    (fun a => match a with | ⟨0, _⟩ => rfl | ⟨1, _⟩ => rfl)).trans ?_
  refine (congrFun (shapeCast_self _ shapeCasts_S1x1_S1x1) _).trans ?_
  refine (shapeCast_apply _ shapeCasts_S1_S1x1 (ix2 (0 : Fin 1) (0 : Fin 1)) (ix1 (0 : Fin 1)) pos_00).trans ?_
  exact col_sum _ _ _

/-- The reset value's entry (0, 0) is zero. -/
theorem pay1_00 : k0_pay1 (F := Ideal) (ix2 (0 : Fin 8) (0 : Fin 128)) = (0 : EReal) := by
  unfold k0_pay1
  rw [shapeCast_self _ shapeCasts_S8x128_S8x128]
  show Ideal.ofBits .f32 0x00000000#32 = 0
  exact Ideal.ofBits_zero_f32

/-- Entry (0, 0) of the updated accumulator: the old entry plus the sum of the block's row terms, when every target of
    the block is a column. -/
theorem pointUpdate_00 (x0 : Vec Ideal S64x32000 .f32) (x1 : Vec Ideal S64x1 .i32) (xs : Vec Ideal S8x128 .f32)
    (hr : ∀ r : Fin 64, (x1 (ix2 r (0 : Fin 1)) : BitVec 32).toNat < 32000) :
    KL.pointUpdate x1 (KL.chunkOf x0) xs (ix2 (0 : Fin 8) (0 : Fin 128))
      = xs (ix2 (0 : Fin 8) (0 : Fin 128))
        + ∑ r : Fin 64, Cert.Spec.rowTerm x0 (fun r => Cert.Spec.colOf (x1 (ix2 r (0 : Fin 1)))) r := by
  unfold KL.pointUpdate
  rw [pay8_00]
  refine congrArg (xs (ix2 (0 : Fin 8) (0 : Fin 128)) + ·) (Finset.sum_congr rfl fun q _ => ?_)
  rw [KPk.pick_sum x0 x1 _ q (hr q), KSE.exp_sum x0 x1 _ q, maxLoop_rowMax x0 q]
  rfl

/-- The total over 8192 rows is the sum of the 128 block sums. -/
theorem total_eq_blocks (x : (⟨2, ![8192, 32000]⟩ : Shape).Idx → EReal) (t : (⟨1, ![8192]⟩ : Shape).Idx → BitVec 32) :
    Cert.Spec.total x t = ∑ p ∈ Finset.range 128, Cert.Spec.blockSum x t p := by
  unfold Cert.Spec.total Cert.Spec.blockSum
  exact (sum_blocks 8192 128 64 (by norm_num) (by norm_num) fun r => Cert.Spec.rowTerm x (Cert.Spec.col t) r).symm

end Cert.KernelIdeal.KR

end
-- ==== Proof.KBlocks.lean ====
/-
  The blocks a point reads, entry by entry: point t's block of the inputs is rows 64 t, …, 64 t + 63 of the array, and
  its block of the targets (the targets reshaped to a column before the kernel is entered) is entries 64 t, …, 64 t + 63.
-/
import proofs.«426357_j19499151524481_3_alg».proof.Proof.Gen.KernelIdeal.Frame
import Idealize.ShloMosaic.Lib.ValueIdx
import Idealize.ShloMosaic.Lib.Pipeline.Value
import Idealize.ShloMosaic.Lib.StableHlo.Run

noncomputable section

open scoped BigOperators

namespace Cert.KernelIdeal.KB

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-- The inputs as launched. -/
abbrev xarr (c : Dev nD) : Vec F S8192x32000 .f32 := m ((c.tc : Thread nD τ).loc main_arg0)
/-- The targets as launched. -/
abbrev tarr (c : Dev nD) : Vec F S8192 .i32 := m ((c.tc : Thread nD τ).loc main_arg1)
/-- Point t's block of the inputs. -/
abbrev xblk (c : Dev nD) (t : Fin cfg0.N) : Vec F S64x32000 .f32 := iblk m c 0 t
/-- Point t's block of the targets. -/
abbrev tblk (c : Dev nD) (t : Fin cfg0.N) : Vec F S64x1 .i32 := iblk m c 1 t

/-- The two input windows' index maps, decided once over the grid: the block row is the point's linear number, the
    block column is 0. -/
theorem index_x : ∀ t : Fin cfg0.N, win0_0.index t (0 : Fin 2) = t.val ∧ win0_0.index t 1 = 0 :=
  (by decide +kernel : ∀ t : Fin grid0.N, win0_0.index t (0 : Fin 2) = t.val ∧ win0_0.index t 1 = 0)
theorem index_t : ∀ t : Fin cfg0.N, win0_1.index t (0 : Fin 2) = t.val ∧ win0_1.index t 1 = 0 :=
  (by decide +kernel : ∀ t : Fin grid0.N, win0_1.index t (0 : Fin 2) = t.val ∧ win0_1.index t 1 = 0)

/-- A point's linear number is below 128. -/
theorem point_lt (t : Fin cfg0.N) : t.val < 128 := by
  have h : cfg0.N = 128 := N_0
  have := t.isLt
  omega

/-- The column of targets the kernel's second window reads is the targets reshaped: entry (i, 0) is target i. -/
theorem tcol_apply (c : Dev nD) (i : Fin 8192) :
    (V m c main_v0 : S8192x1.Idx → Elt F .i32) (ix2 i (0 : Fin 1)) = tarr m c (ix1 i) := by
  have e : (V m c main_v0 : S8192x1.Idx → Elt F .i32)
      = shapeCast S8192x1 (m ((c.tc : Thread nD τ).loc main_arg1) : S8192.Idx → Elt F .i32) shapeCasts_S8192_S8192x1 := by
    show StableHlo.after hostOps0 (fun b => m (c, b)) (Proc.devRef .tc main_v0) = _
    after_results
    rfl
  rw [e]
  refine shapeCast_apply _ _ _ _ ?_
  show (S8192.rowMajor (ix1 i)).val = (S8192x1.rowMajor (ix2 i (0 : Fin 1))).val
  rw [Shape.rowMajor_val_one, Shape.rowMajor_val_two]
  show i.val = i.val * 1 + 0
  omega

/-- Row r of point t's block is row 64 t + r of the inputs. -/
theorem xblk_apply (c : Dev nD) (t : Fin cfg0.N) (r : Fin 64) (cc : Fin 32000) :
    xblk m c t (ix2 r cc) = xarr m c (ix2 (⟨(64 * t.val + r.val) % 8192, Nat.mod_lt _ (by decide)⟩ : Fin 8192) cc) := by
  have hi := index_x t
  have ht := point_lt t
  unfold xblk iblk
  rw [View.read_apply]
  show V m c main_arg0 _ = m ((c.tc : Thread nD τ).loc main_arg0) _
  rw [V_main_arg0]
  congr 1
  funext a
  apply Fin.ext
  match a with
  | ⟨0, _⟩ =>
    show win0_0.index t 0 * 64 + 1 * r.val = (64 * t.val + r.val) % 8192
    rw [hi.1, Nat.mod_eq_of_lt (by omega)]; omega
  | ⟨1, _⟩ =>
    show win0_0.index t 1 * 32000 + 1 * cc.val = cc.val
    rw [hi.2]; omega

/-- Entry r of point t's block of targets is target 64 t + r. -/
theorem tblk_apply (c : Dev nD) (t : Fin cfg0.N) (r : Fin 64) :
    tblk m c t (ix2 r (0 : Fin 1)) = tarr m c (ix1 (⟨(64 * t.val + r.val) % 8192, Nat.mod_lt _ (by decide)⟩ : Fin 8192)) := by
  have hi := index_t t
  have ht := point_lt t
  rw [← tcol_apply m c]
  unfold tblk iblk
  rw [View.read_apply]
  show V m c main_v0 _ = V m c main_v0 _
  congr 1
  funext a
  apply Fin.ext
  match a with
  | ⟨0, _⟩ =>
    show win0_1.index t 0 * 64 + 1 * r.val = (64 * t.val + r.val) % 8192
    rw [hi.1, Nat.mod_eq_of_lt (by omega)]; omega
  | ⟨1, _⟩ =>
    show win0_1.index t 1 * 1 + 1 * 0 = 0
    rw [hi.2]

end Cert.KernelIdeal.KB

end
-- ==== Proof.KAcc.lean ====
/-
  The accumulator point by point. The 128 points run in order; points 0–63 are the first core's, 64–127 the second's.
  After point n the accumulator's entry (0, 0) holds the sum of the block sums of the points of n's core up to n
  (it is reset at the core's first point and grows by one block sum per point); at a core's last point the output
  block holds the same.
-/
import proofs.«426357_j19499151524481_3_alg».proof.Proof.KPieces
import proofs.«426357_j19499151524481_3_alg».proof.Proof.KRow
import proofs.«426357_j19499151524481_3_alg».proof.Proof.KBlocks
import proofs.«426357_j19499151524481_3_alg».proof.Proof.Spec

noncomputable section

open scoped BigOperators

namespace Cert.KernelIdeal.KA

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- A row's term reads its array only through the entries of that row and the row's chosen column: two rows that agree
    entry by entry, with the same chosen column, have the same term. -/
theorem rowTerm_congr {R R' : Nat} (x : (⟨2, ![R, 32000]⟩ : Shape).Idx → EReal) (x' : (⟨2, ![R', 32000]⟩ : Shape).Idx → EReal)
    (tc : Fin R → Fin 32000) (tc' : Fin R' → Fin 32000) (r : Fin R) (r' : Fin R')
    (hx : ∀ cc : Fin 32000, x (ix2 r cc) = x' (ix2 r' cc)) (ht : tc r = tc' r') :
    Cert.Spec.rowTerm x tc r = Cert.Spec.rowTerm x' tc' r' := by
  have hmax : Cert.Spec.rowMax x r = Cert.Spec.rowMax x' r' := by
    unfold Cert.Spec.rowMax
    exact Finset.sup_congr rfl (fun cc _ => hx cc)
  have hsum : Cert.Spec.rowSum x r = Cert.Spec.rowSum x' r' := by
    unfold Cert.Spec.rowSum
    rw [hmax]
    exact Finset.sum_congr rfl (fun cc _ => by rw [hx cc])
  unfold Cert.Spec.rowTerm
  rw [hmax, hsum, ht, hx (tc' r')]

/-- Every target of point t's block is a column, the targets of the array being columns. -/
theorem tblk_lt (c : Dev nD) (hrange : ∀ r : Fin 8192, (KB.tarr m c (ix1 r) : BitVec 32).toNat < 32000) (t : Fin cfg0.N) (r : Fin 64) :
    (KB.tblk m c t (ix2 r (0 : Fin 1)) : BitVec 32).toNat < 32000 := by
  rw [KB.tblk_apply m c t r]
  exact hrange _

/-- The 64 row terms of point t's block sum to block t's sum: row r of the block is row 64 t + r of the array, and its
    target is target 64 t + r. -/
theorem blk_sum (c : Dev nD) (t : Fin cfg0.N) :
    (∑ r : Fin 64, Cert.Spec.rowTerm (R := 64) (KB.xblk m c t) (fun r => Cert.Spec.colOf (KB.tblk m c t (ix2 r (0 : Fin 1)))) r)
      = Cert.Spec.blockSum (KB.xarr m c) (KB.tarr m c) t.val := by
  unfold Cert.Spec.blockSum
  refine Finset.sum_congr rfl (fun r _ => ?_)
  refine rowTerm_congr (R := 64) (R' := 8192) (KB.xblk m c t) (KB.xarr m c) _ _ r _ (fun cc => KB.xblk_apply m c t r cc) ?_
  show Cert.Spec.colOf (KB.tblk m c t (ix2 r (0 : Fin 1))) = Cert.Spec.col (KB.tarr m c) _
  unfold Cert.Spec.col
  rw [KB.tblk_apply m c t r]

/-- At a core's first point the accumulator is reset, then grows by the block's sum: entry (0, 0) is the block's sum. -/
theorem scratch_first (c : Dev nD) (hrange : ∀ r : Fin 8192, (KB.tarr m c (ix1 r) : BitVec 32).toNat < 32000) (t : Fin cfg0.N)
    (h0 : t.val % 64 = 0) :
    (outsAt0 m c t.val t.isLt).2 (ix2 (0 : Fin 8) (0 : Fin 128))
      = Cert.Spec.blockSum (KB.xarr m c) (KB.tarr m c) t.val := by
  have h1 : ¬ t.val % 64 = 63 := by omega
  rw [outsAt0_A m c t h0 h1]
  dsimp only
  refine (congrFun (KP.sout0_A_0_eq (F := Ideal) c (grid0.coords t) (ms0_0 t) (hs0_0 t) (ms0_1 t) (hs0_1 t) (ms0_2 t) (hs0_2 t) scM0_0 (Memref.isWhole_whole cc0_scratch0) ((hcond0_0 t).mpr h0) (fun h => h1 ((hcond0_1 t).mp h)) (KB.xblk m c t) (KB.tblk m c t)) (ix2 (0 : Fin 8) (0 : Fin 128))).trans ?_
  refine (KR.pointUpdate_00 (KB.xblk m c t) (KB.tblk m c t) (k0_pay1 (F := Ideal)) (tblk_lt m c hrange t)).trans ?_
  rw [KR.pay1_00, zero_add]
  exact blk_sum m c t

/-- At a later point of a core the accumulator grows by the block's sum. -/
theorem scratch_next (c : Dev nD) (hrange : ∀ r : Fin 8192, (KB.tarr m c (ix1 r) : BitVec 32).toNat < 32000) (t : Fin cfg0.N)
    (h0 : ¬ t.val % 64 = 0) :
    (outsAt0 m c t.val t.isLt).2 (ix2 (0 : Fin 8) (0 : Fin 128))
      = (outsAt0 m c (t.val - 1) (Nat.lt_of_le_of_lt (Nat.sub_le _ _) t.isLt)).2 (ix2 (0 : Fin 8) (0 : Fin 128))
        + Cert.Spec.blockSum (KB.xarr m c) (KB.tarr m c) t.val := by
  by_cases h1 : t.val % 64 = 63
  · rw [outsAt0_C m c t h0 h1]
    dsimp only
    refine (congrFun (KP.sout0_C_0_eq (F := Ideal) c (grid0.coords t) (ms0_0 t) (hs0_0 t) (ms0_1 t) (hs0_1 t) (ms0_2 t) (hs0_2 t) scM0_0 (Memref.isWhole_whole cc0_scratch0) (fun h => h0 ((hcond0_0 t).mp h)) ((hcond0_1 t).mpr h1) (KB.xblk m c t) (KB.tblk m c t) (outsAt0 m c (t.val - 1) (Nat.lt_of_le_of_lt (Nat.sub_le _ _) t.isLt)).2) (ix2 (0 : Fin 8) (0 : Fin 128))).trans ?_
    refine (KR.pointUpdate_00 (KB.xblk m c t) (KB.tblk m c t) (outsAt0 m c (t.val - 1) (Nat.lt_of_le_of_lt (Nat.sub_le _ _) t.isLt)).2 (tblk_lt m c hrange t)).trans ?_
    rw [blk_sum m c t]
  · rw [outsAt0_B m c t h0 h1]
    dsimp only
    refine (congrFun (KP.sout0_B_0_eq (F := Ideal) c (grid0.coords t) (ms0_0 t) (hs0_0 t) (ms0_1 t) (hs0_1 t) (ms0_2 t) (hs0_2 t) scM0_0 (Memref.isWhole_whole cc0_scratch0) (fun h => h0 ((hcond0_0 t).mp h)) (fun h => h1 ((hcond0_1 t).mp h)) (KB.xblk m c t) (KB.tblk m c t) (outsAt0 m c (t.val - 1) (Nat.lt_of_le_of_lt (Nat.sub_le _ _) t.isLt)).2) (ix2 (0 : Fin 8) (0 : Fin 128))).trans ?_
    refine (KR.pointUpdate_00 (KB.xblk m c t) (KB.tblk m c t) (outsAt0 m c (t.val - 1) (Nat.lt_of_le_of_lt (Nat.sub_le _ _) t.isLt)).2 (tblk_lt m c hrange t)).trans ?_
    rw [blk_sum m c t]

/-- At a core's last point the output block is stored with the updated accumulator. -/
theorem out_eq_scratch (c : Dev nD) (t : Fin cfg0.N) (h63 : t.val % 64 = 63) :
    (outsAt0 m c t.val t.isLt).1 (ix2 (0 : Fin 8) (0 : Fin 128))
      = (outsAt0 m c t.val t.isLt).2 (ix2 (0 : Fin 8) (0 : Fin 128)) := by
  have h0 : ¬ t.val % 64 = 0 := by omega
  rw [outsAt0_C m c t h0 h63]
  dsimp only
  refine (congrFun (KP.out0_C_2_eq (F := Ideal) c (grid0.coords t) (ms0_0 t) (hs0_0 t) (ms0_1 t) (hs0_1 t) (ms0_2 t) (hs0_2 t) scM0_0 (Memref.isWhole_whole cc0_scratch0) (fun h => h0 ((hcond0_0 t).mp h)) ((hcond0_1 t).mpr h63) (KB.xblk m c t) (KB.tblk m c t) (outsAt0 m c (t.val - 1) (Nat.lt_of_le_of_lt (Nat.sub_le _ _) t.isLt)).2) (ix2 (0 : Fin 8) (0 : Fin 128))).trans ?_
  exact (congrFun (KP.sout0_C_0_eq (F := Ideal) c (grid0.coords t) (ms0_0 t) (hs0_0 t) (ms0_1 t) (hs0_1 t) (ms0_2 t) (hs0_2 t) scM0_0 (Memref.isWhole_whole cc0_scratch0) (fun h => h0 ((hcond0_0 t).mp h)) ((hcond0_1 t).mpr h63) (KB.xblk m c t) (KB.tblk m c t) (outsAt0 m c (t.val - 1) (Nat.lt_of_le_of_lt (Nat.sub_le _ _) t.isLt)).2) (ix2 (0 : Fin 8) (0 : Fin 128))).symm

/-- After point n the accumulator's entry (0, 0) is the sum of the block sums of n's core up to n. -/
theorem acc_inv (c : Dev nD) (hrange : ∀ r : Fin 8192, (KB.tarr m c (ix1 r) : BitVec 32).toNat < 32000) (n : Nat) (hn : n < cfg0.N) :
    (outsAt0 m c n hn).2 (ix2 (0 : Fin 8) (0 : Fin 128))
      = ∑ j ∈ Finset.range (n % 64 + 1), Cert.Spec.blockSum (KB.xarr m c) (KB.tarr m c) (n - n % 64 + j) := by
  induction n with
  | zero =>
    refine (scratch_first m c hrange ⟨0, hn⟩ (Nat.zero_mod 64)).trans ?_
    simp
  | succ k ih =>
    have hN : k + 1 < 128 := lt_of_lt_of_eq hn (show cfg0.N = 128 from N_0)
    by_cases h0 : (k + 1) % 64 = 0
    · refine (scratch_first m c hrange ⟨k + 1, hn⟩ h0).trans ?_
      show Cert.Spec.blockSum (KB.xarr m c) (KB.tarr m c) (k + 1) = _
      rw [h0, Finset.sum_range_one]
      exact congrArg (Cert.Spec.blockSum (KB.xarr m c) (KB.tarr m c)) (by omega)
    · refine (scratch_next m c hrange ⟨k + 1, hn⟩ h0).trans ?_
      show (outsAt0 m c (k + 1 - 1) _).2 (ix2 (0 : Fin 8) (0 : Fin 128)) + Cert.Spec.blockSum (KB.xarr m c) (KB.tarr m c) (k + 1) = _
      have e1 : (k + 1) % 64 = k % 64 + 1 := by omega
      have e2 : k + 1 - (k % 64 + 1) = k - k % 64 := by omega
      have e3 : k - k % 64 + (k % 64 + 1) = k + 1 := by omega
      rw [e1, e2, Finset.sum_range_succ (fun j => Cert.Spec.blockSum (KB.xarr m c) (KB.tarr m c) (k - k % 64 + j)) (k % 64 + 1), e3]
      exact congrArg (· + Cert.Spec.blockSum (KB.xarr m c) (KB.tarr m c) (k + 1)) (ih (Nat.lt_of_succ_lt hn))

/-- At a core's last point the output block's entry (0, 0) is the sum of the core's 64 block sums. -/
theorem out_last (c : Dev nD) (hrange : ∀ r : Fin 8192, (KB.tarr m c (ix1 r) : BitVec 32).toNat < 32000) (n : Nat) (hn : n < cfg0.N)
    (h63 : n % 64 = 63) :
    (outsAt0 m c n hn).1 (ix2 (0 : Fin 8) (0 : Fin 128))
      = ∑ j ∈ Finset.range 64, Cert.Spec.blockSum (KB.xarr m c) (KB.tarr m c) (n - 63 + j) := by
  refine (out_eq_scratch m c ⟨n, hn⟩ h63).trans ?_
  refine (acc_inv m c hrange n hn).trans ?_
  rw [h63]

end Cert.KernelIdeal.KA

end
-- ==== Proof.KArr.lean ====
/-
  The output array after the kernel. Its 16 × 128 entries are two blocks of 8 × 128; the pipeline writes block 0 back
  at point 63 and block 1 at point 127 (each core's last point) and at no other point, so after all 128 points
  rows 0–7 hold what the body left in the output's staging block at point 63 and rows 8–15 what it left at point 127.
-/
import proofs.«426357_j19499151524481_3_alg».proof.Proof.Gen.KernelIdeal.Frame
import Idealize.ShloMosaic.Lib.ValueIdx
import Idealize.ShloMosaic.Lib.Pipeline.Value

noncomputable section

open scoped BigOperators

namespace Cert.KernelIdeal.KArr

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-- The output array after all points, as an array of its literal shape. -/
abbrev outArr (c : Dev nD) : Vec F S16x128 .f32 := (dats m 0 c).arrAt 2 cfg0.N

/-- The block index of the output window at point t is (t / 64, 0): the core, and the one block of columns. -/
theorem idx_facts : ∀ t : Fin cfg0.N, win0_2.index t (0 : Fin 2) = t.val / 64 ∧ win0_2.index t (1 : Fin 2) = 0 :=
  (by decide +kernel : ∀ t : Fin grid0.N, win0_2.index t (0 : Fin 2) = t.val / 64 ∧ win0_2.index t (1 : Fin 2) = 0)

/-- The output block after a point depends on the point's number only. -/
theorem outs_congr (c : Dev nD) (n n' : Nat) (hn : n < cfg0.N) (hn' : n' < cfg0.N) (e : n = n')
    (j j' : S8x128.Idx) (ej : j = j') : (outsAt0 m c n hn).1 j = (outsAt0 m c n' hn').1 j' := by
  subst e; subst ej; rfl

/-- The array of 16 × 128 whose rows 8 b, …, 8 b + 7 are the output block after core b's last point, 64 b + 63. -/
def blocksArr (c : Dev nD) : Vec F S16x128 .f32 := fun i =>
  (outsAt0 m c (64 * ((i 0).val / 8) + 63)
    (by have h := idx2_lt0 i; rw [show cfg0.N = 128 from N_0]; omega)).1
    (ix2 (⟨(i 0).val % 8, Nat.mod_lt _ (by decide)⟩ : Fin 8) (⟨(i 1).val, idx2_lt1 i⟩ : Fin 128))

/-- What a point that writes the output block back writes is its block of that array: such a point is 64 b + 63, its
    block is rows 8 b, …, 8 b + 7. -/
theorem flushed_eq (c : Dev nD) (t : Fin cfg0.N) (hf : (cfg0.win 2).flush t = true) :
    (dats m 0 c).flushed 2 t = ((cfg0.win 2).blk t).view.read (Elt F) (blocksArr m c) := by
  have h63 : t.val % 64 = 63 := (flush0_2 t).mp hf
  obtain ⟨e0, e1⟩ := idx_facts t
  show (cfg0.win 2).cut (grid0.coords t) ((dats m 0 c).after 2 t) = _
  rw [after0_2]
  funext j
  have hj0 : (j 0).val < 8 := (j 0).isLt
  have hj1 : (j 1).val < 128 := (j 1).isLt
  show (outsAt0 m c t.val t.isLt).1 j = blocksArr m c (((cfg0.win 2).blk t).view.emb j)
  unfold blocksArr
  refine outs_congr m c _ _ _ _ ?_ _ _ ?_
  · show t.val = 64 * ((win0_2.index t (0 : Fin 2) * 8 + 1 * (j 0).val) / 8) + 63
    omega
  · funext a
    apply Fin.ext
    match a with
    | ⟨0, _⟩ => show (j 0).val = (win0_2.index t (0 : Fin 2) * 8 + 1 * (j 0).val) % 8; omega
    | ⟨1, _⟩ => show (j 1).val = win0_2.index t (1 : Fin 2) * 128 + 1 * (j 1).val; omega

/-- The output array after the run is that array: every row 8 b + r lies in the block point 64 b + 63 writes back. -/
theorem final (c : Dev nD) : outArr m c = blocksArr m c :=
  (dats m 0 c).arrAt_eq_of_cover 2 (blocksArr m c) (flushed_eq m c) fun i => by
    have hi0 : (i 0).val < 16 := idx2_lt0 i
    have hi1 : (i 1).val < 128 := idx2_lt1 i
    have hN : cfg0.N = 128 := N_0
    have ht : 64 * ((i 0).val / 8) + 63 < cfg0.N := by omega
    obtain ⟨e0, e1⟩ := idx_facts ⟨64 * ((i 0).val / 8) + 63, ht⟩
    have e0' : win0_2.index ⟨64 * ((i 0).val / 8) + 63, ht⟩ (0 : Fin 2) = (64 * ((i 0).val / 8) + 63) / 64 := e0
    refine ⟨⟨64 * ((i 0).val / 8) + 63, ht⟩, (flush0_2 _).mpr (by show (64 * ((i 0).val / 8) + 63) % 64 = 63; omega), ?_⟩
    show i ∈ ((View.whole main_v1).slice (win0_2.rect ⟨64 * ((i 0).val / 8) + 63, ht⟩)).set
    rw [View.set_slice_whole, Rect.mem_set_unit]
    intro a
    match a with
    | ⟨0, _⟩ =>
      show win0_2.index ⟨64 * ((i 0).val / 8) + 63, ht⟩ (0 : Fin 2) * 8 ≤ (i 0).val
        ∧ (i 0).val < win0_2.index ⟨64 * ((i 0).val / 8) + 63, ht⟩ (0 : Fin 2) * 8 + 8
      omega
    | ⟨1, _⟩ =>
      show win0_2.index ⟨64 * ((i 0).val / 8) + 63, ht⟩ (1 : Fin 2) * 128 ≤ (i 1).val
        ∧ (i 1).val < win0_2.index ⟨64 * ((i 0).val / 8) + 63, ht⟩ (1 : Fin 2) * 128 + 128
      omega

/-- Entry (0, 0) of the output array is entry (0, 0) of what point 63 left in the output block. -/
theorem arr_00 (c : Dev nD) (h63 : 63 < cfg0.N) :
    outArr m c (ix2 (0 : Fin 16) (0 : Fin 128)) = (outsAt0 m c 63 h63).1 (ix2 (0 : Fin 8) (0 : Fin 128)) := by
  rw [final]
  unfold blocksArr
  exact outs_congr m c _ _ _ _ rfl _ _ (funext fun a => Fin.ext (by match a with | ⟨0, _⟩ => rfl | ⟨1, _⟩ => rfl))

/-- Entry (8, 0) of the output array is entry (0, 0) of what point 127 left in the output block. -/
theorem arr_80 (c : Dev nD) (h127 : 127 < cfg0.N) :
    outArr m c (ix2 (8 : Fin 16) (0 : Fin 128)) = (outsAt0 m c 127 h127).1 (ix2 (0 : Fin 8) (0 : Fin 128)) := by
  rw [final]
  unfold blocksArr
  exact outs_congr m c _ _ _ _ rfl _ _ (funext fun a => Fin.ext (by match a with | ⟨0, _⟩ => rfl | ⟨1, _⟩ => rfl))

end Cert.KernelIdeal.KArr

end
-- ==== Proof.KOut.lean ====
/-
  The kernel program's result. The output array of 16 × 128 is written back twice: block 0 (rows 0–7) at point 63 and
  block 1 (rows 8–15) at point 127, each holding its core's accumulator. The host lines after the kernel read entries
  (0, 0) and (8, 0), add them, negate and divide by 3: minus the sum of all 128 block sums over 3, which is the loss.
-/
import proofs.«426357_j19499151524481_3_alg».proof.Proof.KAcc
import proofs.«426357_j19499151524481_3_alg».proof.Proof.KArr

noncomputable section

open scoped BigOperators

namespace Cert.KernelIdeal.KO

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The two entries the host reads add up to the total: entry (0, 0) is the sum of block sums 0, …, 63, entry (8, 0) that
    of block sums 64, …, 127, and a sum over 128 consecutive numbers splits into its two halves. -/
theorem entries_sum (c : Dev nD) (hrange : ∀ r : Fin 8192, (KB.tarr m c (ix1 r) : BitVec 32).toNat < 32000) :
    KArr.outArr m c (ix2 (0 : Fin 16) (0 : Fin 128)) + KArr.outArr m c (ix2 (8 : Fin 16) (0 : Fin 128))
      = Cert.Spec.total (KB.xarr m c) (KB.tarr m c) := by
  have hN : cfg0.N = 128 := N_0
  have h63 : 63 < cfg0.N := by omega
  have h127 : 127 < cfg0.N := by omega
  rw [KArr.arr_00 m c h63, KArr.arr_80 m c h127, KA.out_last m c hrange 63 h63 (by decide),
    KA.out_last m c hrange 127 h127 (by decide), KR.total_eq_blocks]
  refine Eq.trans ?_ (Finset.sum_range_add (fun p => Cert.Spec.blockSum (KB.xarr m c) (KB.tarr m c) p) 64 64).symm
  refine congrArg₂ (· + ·) (Finset.sum_congr rfl fun j _ => ?_) (Finset.sum_congr rfl fun j _ => ?_)
  · rw [show 63 - 63 + j = j by omega]
  · rw [show 127 - 63 + j = 64 + j by omega]

/-- The host lines after the kernel: the two entries read out of the output array, added, negated and divided by 3. -/
theorem tail_eq (c : Dev nD) (hrange : ∀ r : Fin 8192, (KB.tarr m c (ix1 r) : BitVec 32).toNat < 32000) :
    Pipeline.afterTail₀ cfgs (dats m) 0 (V0 m) [hostOps1] c main_v8 = Cert.Spec.result (KB.xarr m c) (KB.tarr m c) := by
  unfold Pipeline.afterTail₀
  show StableHlo.after hostOps1 _ (Proc.devRef .tc main_v8) = _
  after_results
  have hW : Pipeline.withArrays (cfgs 0).spec c (V0 m c) (fun w => (dats m 0 c).arrAt w (cfgs 0).N) (Proc.devRef .tc main_v1)
      = KArr.outArr m c := Pipeline.withArrays_arr spec0 launch0.win.arr_inj c _ _ 2
  rw [hW]
  unfold Cert.Spec.result
  refine congrArg (fun z => Host.divf (F := Ideal) (Host.negf (F := Ideal) z) (constant (F := Ideal) S_ .f32 0x40400000#32)) ?_
  funext i
  refine Eq.trans ?_ (entries_sum m c hrange)
  show shapeCast S_ (extractStridedSlice S1x1 ![0, 0] (KArr.outArr m c) slices_S16x128_S1x1_0_0) shapeCasts_S1x1_S_ i
      + shapeCast S_ (extractStridedSlice S1x1 ![8, 0] (KArr.outArr m c) slices_S16x128_S1x1_8_0) shapeCasts_S1x1_S_ i = _
  have hpos : ∀ (k : S1x1.Idx), (S1x1.rowMajor k).val = (S_.rowMajor i).val := fun k => by
    have h1 : (S1x1.rowMajor k).val < 1 := (S1x1.rowMajor k).isLt
    have h2 : (S_.rowMajor i).val < 1 := (S_.rowMajor i).isLt
    omega
  refine congrArg₂ (· + ·) ?_ ?_
  · exact (shapeCast_apply _ _ i (ix2 (0 : Fin 1) (0 : Fin 1)) (hpos _)).trans
      (extractStridedSlice_apply _ _ _ _ (ix2 (0 : Fin 16) (0 : Fin 128)) fun a => by match a with | ⟨0, _⟩ => rfl | ⟨1, _⟩ => rfl)
  · exact (shapeCast_apply _ _ i (ix2 (0 : Fin 1) (0 : Fin 1)) (hpos _)).trans
      (extractStridedSlice_apply _ _ _ _ (ix2 (8 : Fin 16) (0 : Fin 128)) fun a => by match a with | ⟨0, _⟩ => rfl | ⟨1, _⟩ => rfl)

/-- Every weakly fair execution of the kernel program ends with the loss in its result and its arguments unchanged,
    when every target is a column. -/
theorem run (m : (ℓ : Loc nD τ sig) → Buf (Elt Ideal) ℓ) (ρ : Dev nD → PrngReg)
    (hrange : ∀ (c : Dev nD) (r : Fin 8192), (KB.tarr m c (ix1 r) : BitVec 32).toNat < 32000) :
    θ_run (defs (F := Ideal)) (onTc (τ := τ) (main (F := Ideal))) ⟨m, fun _ => 0, ρ⟩ (fun r => ∀ c : Dev nD,
      r.2.mem ((c.tc : Thread nD τ).loc main_v8) = Cert.Spec.result (KB.xarr m c) (KB.tarr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  have hc := h c
  refine ⟨?_, ?_, ?_⟩
  · exact (hc.2 main_v8 (Pipeline.mem_restRefs_of main_v8 (by decide) (by decide))).trans (tail_eq m c (hrange c))
  · exact (hc.1 0).trans (((dats m 0 c).arrAt_in 0 rfl _).trans ((A_eq m c 0).trans (V_main_arg0 m c)))
  · exact (hc.2 main_arg1 (Pipeline.mem_restRefs_of main_arg1 (by decide) (by decide))).trans (W_main_arg1 m (dats m) c)

end Cert.KernelIdeal.KO

end
-- ==== Proof.lean ====
/-
  The certificate. Both idealized programs compute, over the extended reals, the same loss
    -(sum over the 8192 rows r of ((x r (t r) - max of row r) - log (sum over the row of exp (x r c - max of row r)))) / 3,
  when every target t r is a column (0 ≤ t r < 32000), which the precondition states. The kernel sums the row terms
  block by block (128 blocks of 64 rows, accumulated per core, the two cores' sums added by the host); the reference
  sums the gathered log-softmax over all rows at once; addition and maximum on the extended reals are commutative and
  associative, so the two groupings agree. The three frames are the programs' runs with the values dropped; the
  idealization rewrote nothing, so there is nothing to preserve.
-/
import proofs.«426357_j19499151524481_3_alg».proof.Defs
import proofs.«426357_j19499151524481_3_alg».proof.Proof.Gen.Kernel
import proofs.«426357_j19499151524481_3_alg».proof.Proof.Gen.Kernel.Frame
import proofs.«426357_j19499151524481_3_alg».proof.Proof.Gen.KernelIdeal
import proofs.«426357_j19499151524481_3_alg».proof.Proof.Gen.KernelIdeal.Frame
import proofs.«426357_j19499151524481_3_alg».proof.Proof.Gen.ReferenceIdeal
import proofs.«426357_j19499151524481_3_alg».proof.Proof.Gen.Pre_finite_inputs
import proofs.«426357_j19499151524481_3_alg».proof.Proof.RefRun
import proofs.«426357_j19499151524481_3_alg».proof.Proof.RefValue
import proofs.«426357_j19499151524481_3_alg».proof.Proof.PreRange
import proofs.«426357_j19499151524481_3_alg».proof.Proof.KOut
import Idealize.ShloMosaic.Adequacy
import Idealize.ShloMosaic.Init

noncomputable section

namespace Cert.Proof

open Idealize.ShloMosaic Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Under the precondition the two runs end with the loss of the (agreeing) arguments. -/
theorem algebraic : Cert.algebraic_KernelIdeal_ReferenceIdeal := by
  intro m ρ m' ρ' hpre hagree
  have hrange : ∀ (c : Dev Cert.KernelIdeal.nD) (r : Fin 8192),
      (Cert.KernelIdeal.KB.tarr m c (ix1 r) : BitVec 32).toNat < 32000 :=
    fun c => Cert.PreRange.range_of_pre _ _ (hpre c)
  refine ⟨fun c => Cert.Spec.result (Cert.KernelIdeal.KB.xarr m c) (Cert.KernelIdeal.KB.tarr m c),
    Cert.KernelIdeal.KO.run m ρ hrange, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2]
  exact Cert.ReferenceIdeal.RV.result_eq _ _ (hrange c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
